-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256 : Shape := ⟨1, ![256]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S256x512 .f32) (main_arg1 : IVec S256 32) (main_arg2 : FVec F S1024x512 .f32) (main_arg3 : FVec F S512 .f32) (main_arg4 : FVec F S512x1 .f32) (main_arg5 : FVec F S1 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg5 main_v13 main_v16
-- ==== Kernel.lean ====
abbrev S256x512 : Shape := ⟨2, ![256, 512]⟩
abbrev S256 : Shape := ⟨1, ![256]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S512x512 : Shape := ⟨2, ![512, 512]⟩
abbrev S1x512 : Shape := ⟨2, ![1, 512]⟩
abbrev S1x1 : Shape := ⟨2, ![1, 1]⟩
abbrev S256x1 : Shape := ⟨2, ![256, 1]⟩
abbrev S1x256 : Shape := ⟨2, ![1, 256]⟩
abbrev S256x256 : Shape := ⟨2, ![256, 256]⟩
abbrev S128x128 : Shape := ⟨2, ![128, 128]⟩
abbrev S1x128 : Shape := ⟨2, ![1, 128]⟩
abbrev S128x1 : Shape := ⟨2, ![128, 1]⟩
abbrev S128x1x128 : Shape := ⟨3, ![128, 1, 128]⟩
abbrev S1x128x128 : Shape := ⟨3, ![1, 128, 128]⟩
abbrev S128x128x128 : Shape := ⟨3, ![128, 128, 128]⟩
abbrev S1x1x128 : Shape := ⟨3, ![1, 1, 128]⟩
abbrev S65536 : Shape := ⟨1, ![65536]⟩

abbrev nBuf : Space → Nat
  | .hbm => 18
  | .vmem => 20
  | .smem => 0
  | _ => 0

abbrev bufTy : (tb : Table) → Fin (tcTables nBuf tb) → BufTy
  | .hbm, ⟨0, _⟩ => ⟨S256x512, .f32⟩
  | .hbm, ⟨1, _⟩ => ⟨S256, .i32⟩
  | .hbm, ⟨2, _⟩ => ⟨S1024x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S512x512, .f32⟩
  | .hbm, ⟨7, _⟩ => ⟨S512x512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S1x1, .f32⟩
  | .hbm, ⟨12, _⟩ => ⟨S256x1, .i32⟩
  | .hbm, ⟨13, _⟩ => ⟨S1x256, .i32⟩
  | .hbm, ⟨14, _⟩ => ⟨S256x512, .f32⟩
  | .hbm, ⟨15, _⟩ => ⟨S256x512, .f32⟩
  | .hbm, ⟨16, _⟩ => ⟨S256x256, .f32⟩
  | .hbm, ⟨17, _⟩ => ⟨S65536, .f32⟩
  | .local _ .vmem, ⟨0, _⟩ => ⟨S256x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x1, .i32⟩
  | .local _ .vmem, ⟨13, _⟩ => ⟨S128x1, .i32⟩
  | .local _ .vmem, ⟨14, _⟩ => ⟨S1x128, .i32⟩
  | .local _ .vmem, ⟨15, _⟩ => ⟨S1x128, .i32⟩
  | .local _ .vmem, ⟨16, _⟩ => ⟨S1x1, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨3, ![2, 2, 4], ![false, false, false]⟩

def k1_cond2 (i : grid1.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_11 : BitVec 32 := 0#32
  let v27 : BitVec 1 := Scalar.cmpi .ne v26 c0_i32_11
  v27

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S128x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  slices_S1024x512_S512x512_0_0 : S1024x512.Slices ![0, 0] S512x512
  slices_S1024x512_S512x512_512_0 : S1024x512.Slices ![512, 0] S512x512
  shapeCasts_S512_S1x512 : S512.ShapeCasts S1x512
  shapeCasts_S512x1_S512 : S512x1.ShapeCasts S512
  shapeCasts_S1_S1x1 : S1.ShapeCasts S1x1
  shapeCasts_S256_S256x1 : S256.ShapeCasts S256x1
  shapeCasts_S256_S1x256 : S256.ShapeCasts S1x256
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S128x128x128 : S1x1x128.Broadcasts S128x128x128
  reduces_S128x128x128_S128x128 : S128x128x128.Reduces [2] S128x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  broadcasts_S1x128_S128x128 : S1x128.Broadcasts S128x128
  natLt_1_32 : 1 < 32
  shapeCasts_S256x256_S65536 : S256x256.ShapeCasts S65536
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S256x512.size a
  hwx1_0 : ∀ i : grid1.Coords, EltTy.bits .f32 = 32 ∨ (Rect.block (s := S256x512) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S256x512.size a
  hwx1_1 : ∀ i : grid1.Coords, EltTy.bits .f32 = 32 ∨ (Rect.block (s := S256x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x512.size a
  hwx1_2 : ∀ i : grid1.Coords, EltTy.bits .f32 = 32 ∨ (Rect.block (s := S1x512) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S256x1.size a
  hwx1_3 : ∀ i : grid1.Coords, EltTy.bits .i32 = 32 ∨ (Rect.block (s := S256x1) S128x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x256.size a
  hwx1_4 : ∀ i : grid1.Coords, EltTy.bits .i32 = 32 ∨ (Rect.block (s := S1x256) S1x128.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S256x256.size a
  hwx1_6 : ∀ i : grid1.Coords, EltTy.bits .f32 = 32 ∨ (Rect.block (s := S256x256) S128x128.size (cc1_transform_6 i) (hinb1_6 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S256x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S256x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8_1) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_0) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S128x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S256x512 : Shape := ⟨2, ![256, 512]⟩
abbrev S256 : Shape := ⟨1, ![256]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x256x512 : Shape := ⟨3, ![1, 256, 512]⟩
abbrev S256x256x512 : Shape := ⟨3, ![256, 256, 512]⟩
abbrev S256x1x512 : Shape := ⟨3, ![256, 1, 512]⟩
abbrev S256x256x1024 : Shape := ⟨3, ![256, 256, 1024]⟩
abbrev S1x1x512 : Shape := ⟨3, ![1, 1, 512]⟩
abbrev S_ : Shape := ⟨0, ![]⟩
abbrev S256x256x1 : Shape := ⟨3, ![256, 256, 1]⟩
abbrev S1x1x1 : Shape := ⟨3, ![1, 1, 1]⟩
abbrev S256x256 : Shape := ⟨2, ![256, 256]⟩
abbrev S256x1 : Shape := ⟨2, ![256, 1]⟩
abbrev S1x256 : Shape := ⟨2, ![1, 256]⟩
abbrev S65536 : Shape := ⟨1, ![65536]⟩

abbrev nBuf : Space → Nat
  | .hbm => 56
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256, .i32⟩
  | .hbm, ⟨2, _⟩ => ⟨S1024x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S1x256x512, .f32⟩
  | .hbm, ⟨7, _⟩ => ⟨S256x256x512, .f32⟩
  | .hbm, ⟨8, _⟩ => ⟨S256x1x512, .f32⟩
  | .hbm, ⟨9, _⟩ => ⟨S256x256x512, .f32⟩
  | .hbm, ⟨10, _⟩ => ⟨S256x256x1024, .f32⟩
  | .hbm, ⟨11, _⟩ => ⟨S256x256x512, .f32⟩
  | .hbm, ⟨12, _⟩ => ⟨S1x1x512, .f32⟩
  | .hbm, ⟨13, _⟩ => ⟨S256x256x512, .f32⟩
  | .hbm, ⟨14, _⟩ => ⟨S256x256x512, .f32⟩
  | .hbm, ⟨15, _⟩ => ⟨S_, .f32⟩
  | .hbm, ⟨16, _⟩ => ⟨S256x256x512, .f32⟩
  | .hbm, ⟨17, _⟩ => ⟨S256x256x512, .f32⟩
  | .hbm, ⟨18, _⟩ => ⟨S256x256x1, .f32⟩
  | .hbm, ⟨19, _⟩ => ⟨S1x1x1, .f32⟩
  | .hbm, ⟨20, _⟩ => ⟨S256x256x1, .f32⟩
  | .hbm, ⟨21, _⟩ => ⟨S256x256x1, .f32⟩
  | .hbm, ⟨22, _⟩ => ⟨S256x256x1, .f32⟩
  | .hbm, ⟨23, _⟩ => ⟨S256x256x1, .f32⟩
  | .hbm, ⟨24, _⟩ => ⟨S_, .f32⟩
  | .hbm, ⟨25, _⟩ => ⟨S256x256x1, .f32⟩
  | .hbm, ⟨26, _⟩ => ⟨S256x256x1, .f32⟩
  | .hbm, ⟨27, _⟩ => ⟨S_, .f32⟩
  | .hbm, ⟨28, _⟩ => ⟨S256x256x1, .f32⟩
  | .hbm, ⟨29, _⟩ => ⟨S256x256x1, .f32⟩
  | .hbm, ⟨30, _⟩ => ⟨S256x256, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x1, .i32⟩
  | .hbm, ⟨40, _⟩ => ⟨S1x256, .i32⟩
  | .hbm, ⟨41, _⟩ => ⟨S256x256, .i32⟩
  | .hbm, ⟨42, _⟩ => ⟨S256x256, .i32⟩
  | .hbm, ⟨43, _⟩ => ⟨S256x256, .i1⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S65536, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S256x512_S1x256x512_1_2 : S256x512.BroadcastsInDim S1x256x512 (![1, 2] : Fin 2 → Fin S1x256x512.rank)
  bcast_S1x256x512_S256x256x512_0_1_2 : S1x256x512.BroadcastsInDim S256x256x512 (![0, 1, 2] : Fin 3 → Fin S256x256x512.rank)
  bcast_S256x512_S256x1x512_0_2 : S256x512.BroadcastsInDim S256x1x512 (![0, 2] : Fin 2 → Fin S256x1x512.rank)
  bcast_S256x1x512_S256x256x512_0_1_2 : S256x1x512.BroadcastsInDim S256x256x512 (![0, 1, 2] : Fin 3 → Fin S256x256x512.rank)
  concatenates_S256x256x512_S256x256x512_S256x256x1024_d2 : Shape.Concatenates [S256x256x512, S256x256x512] S256x256x1024 2
  bcast_S512_S1x1x512_2 : S512.BroadcastsInDim S1x1x512 (![2] : Fin 1 → Fin S1x1x512.rank)
  bcast_S1x1x512_S256x256x512_0_1_2 : S1x1x512.BroadcastsInDim S256x256x512 (![0, 1, 2] : Fin 3 → Fin S256x256x512.rank)
  bcast_S_S256x256x512 : S_.BroadcastsInDim S256x256x512 (![] : Fin 0 → Fin S256x256x512.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  bcast_S_S256x256x1 : S_.BroadcastsInDim S256x256x1 (![] : Fin 0 → Fin S256x256x1.rank)
  shapeCasts_S256x256x1_S256x256 : S256x256x1.ShapeCasts S256x256
  bcast_S_S256x256 : S_.BroadcastsInDim S256x256 (![] : Fin 0 → Fin S256x256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  shapeCasts_S256x256_S65536 : S256x256.ShapeCasts S65536
  dot_S256x256x1024_S1024x512_S256x256x512_2_0_01_1_n_n_wf : DotDims.WF S256x256x1024 S1024x512 S256x256x512 [2] [0] [0, 1] [1] [] []
  dot_S256x256x512_S512x1_S256x256x1_2_0_01_1_n_n_wf : DotDims.WF S256x256x512 S512x1 S256x256x1 [2] [0] [0, 1] [1] [] []

variable [Facts₀]

def dot_S256x256x1024_S1024x512_S256x256x512_2_0_01_1_n_n : DotDims S256x256x1024 S1024x512 S256x256x512 where
  lhsContracting := [2]
  rhsContracting := [0]
  lhsNonContracting := [0, 1]
  rhsNonContracting := [1]
  lhsBatch := []
  rhsBatch := []
  wf := dot_S256x256x1024_S1024x512_S256x256x512_2_0_01_1_n_n_wf
def dot_S256x256x512_S512x1_S256x256x1_2_0_01_1_n_n : DotDims S256x256x512 S512x1 S256x256x1 where
  lhsContracting := [2]
  rhsContracting := [0]
  lhsNonContracting := [0, 1]
  rhsNonContracting := [1]
  lhsBatch := []
  rhsBatch := []
  wf := dot_S256x256x512_S512x1_S256x256x1_2_0_01_1_n_n_wf

class Facts : Prop extends Facts₀ where

variable [Facts]
-- ==== Proof.BitsRegion0.lean ====
/- REGION 0 of @main, the class-A half of the frame, at any float instance: the projection kernel
   `cc0__proj_kernel` on its one grid point reads the embedding block [256,512], the two halves of the first
   layer's weight [512,512] each and the bias row [1,512], and leaves in its two output buffers
   A = emb·W1a + b1 and Bm = emb·W1b, each one whole-array block. Stated at a PARAMETER `V`, the TensorCore's
   buffer contents when the region is entered: each window's block at the point (`iblk0`), what the body leaves
   in each output's buffer (`out0_4`, `out0_5`), the body's triple (`sound_kernel0`), the pipeline's proof
   data (`dat0`) and the body obligation (`body_obligation0`). -/
import proofs.«109424_j51367808860812_1_alg».proof.Proof.Gen.Kernel.Launch
import proofs.«109424_j51367808860812_1_alg».proof.Proof.Gen.Kernel.Skeleton
import proofs.«109424_j51367808860812_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! # REGION 0: the projection kernel `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the embedding block): its current staging buffer holds its block at every point, fetched there or
    not, for ANY proof data whose array is `V`'s (`hA`) and whose body leaves the block in place (`hafter`);
    the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight's upper half W1a): its current staging buffer holds its block at every point, fetched there or
    not, for ANY proof data whose array is `V`'s (`hA`) and whose body leaves the block in place (`hafter`);
    the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the weight's lower half W1b): its current staging buffer holds its block at every point, fetched there or
    not, for ANY proof data whose array is `V`'s (`hA`) and whose body leaves the block in place (`hafter`);
    the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the bias row b1): its current staging buffer holds its block at every point, fetched there or
    not, for ANY proof data whose array is `V`'s (`hA`) and whose body leaves the block in place (`hafter`);
    the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is a whole buffer -/

/-- The whole [256,512] buffer (the embedding block, and each output block). -/
abbrev rAct : Rect S256x512 := Rect.unit (s := S256x512) ![0, 0] S256x512.size inb_S256x512_S256x512_0_0
/-- The whole [512,512] buffer (a half of the weight). -/
abbrev rWgt : Rect S512x512 := Rect.unit (s := S512x512) ![0, 0] S512x512.size inb_S512x512_S512x512_0_0
/-- The whole [1,512] buffer (the bias row). -/
abbrev rBias : Rect S1x512 := Rect.unit (s := S1x512) ![0, 0] S1x512.size inb_S1x512_S1x512_0_0

/-! ## What the body leaves in each output window's buffer -/

/-- Window 4's staging buffer after the body, from the input blocks: its one store, the block
    A = emb·W1a + b1 (the payload is the skeleton's). -/
def out0_4 (x0 : Vec F S256x512 .f32) (x1 : Vec F S512x512 .f32) (x3 : Vec F S1x512 .f32) : Vec F S256x512 .f32 :=
  View.canon [⟨rAct, k0_pay2 (View.ld x0 rAct) (View.ld x1 rWgt) (View.ld x3 rBias)⟩]

/-- Window 5's staging buffer after the body, from the input blocks: its one store, the block Bm = emb·W1b. -/
def out0_5 (x0 : Vec F S256x512 .f32) (x2 : Vec F S512x512 .f32) : Vec F S256x512 .f32 :=
  View.canon [⟨rAct, k0_pay3 (View.ld x0 rAct) (View.ld x2 rWgt)⟩]

/-- The one store into window 4's buffer is the whole buffer, so it covers it. -/
theorem cover0_4 (p0 : Vec F S256x512 .f32) (y : S256x512.Idx) :
    ∃ pc ∈ ([⟨rAct, p0⟩] : List (View.Piece (Elt F) S256x512 .f32)), y ∈ pc.1.set :=
  View.cover_of_tiled [⟨rAct, p0⟩] S256x512.size (by rfl) y

/-- The one store into window 5's buffer is the whole buffer, so it covers it. -/
theorem cover0_5 (p0 : Vec F S256x512 .f32) (y : S256x512.Idx) :
    ∃ pc ∈ ([⟨rAct, p0⟩] : List (View.Piece (Elt F) S256x512 .f32)), y ∈ pc.1.set :=
  View.cover_of_tiled [⟨rAct, p0⟩] S256x512.size (by rfl) y

/-! ## The body's triple -/

set_option maxHeartbeats 1000000 in
/-- The kernel body on whole staging memrefs, the inputs' at read contents `xW` and the outputs' at anything, runs
    to the continuation holding the inputs' as they were and the outputs' at `out0_4`, `out0_5` of the inputs':
    the printed function is its skeleton, six whole-buffer loads (the two of the output buffers read values
    nothing uses) and the two whole-buffer stores. -/
theorem sound_kernel0 (c : Dev nD) (E : Set ℕ) (i : grid0.Coords) (arg1 : Memref sig .tc .vmem S256x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S256x512 .f32) (harg6 : arg6.IsWhole)
    (x0 : Vec F S256x512 .f32) (x1 : Vec F S512x512 .f32) (x2 : Vec F S512x512 .f32) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x3) ∗ owns (c : Thread nD τ) arg6 fullShare (out0_5 x0 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    the point each input's buffer at its block, window 4's at A = emb·W1a + b1 and window 5's at Bm = emb·W1b
    of the input blocks (`out0_4`, `out0_5`); the invariant the class's (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
    | ⟨5, _⟩ => out0_5 (iblk0 V c 0 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 3 t) := by dsimp only [dat0]
theorem after0_5 (c : Dev nD) (t : Fin cfg0.N) :
    (dat0 V c).after 5 t = out0_5 (iblk0 V c 0 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BitsRegion1Runs.lean ====
/- Region 1 of the idealized kernel (the pairwise-loss pallas_call on the grid (2, 2, 4), whose VMEM accumulator is
   carried along the last grid axis): the definitions its frame is stated over — the windows' blocks read off the
   region-entry arrays, the two branch conditions in closed form, where the output window is idle, the staging and
   scratch memrefs — and the body's run in each of the three cases of its conditionals. Generic in the float
   instance. -/
import proofs.«109424_j51367808860812_1_alg».proof.Proof.Gen.Kernel.Launch
import proofs.«109424_j51367808860812_1_alg».proof.Proof.Gen.Kernel.Skeleton
import proofs.«109424_j51367808860812_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the block was fetched
    there (where it was not, the block index has not moved since the point before), for any proof data over the
    region-entry arrays (`hA`) whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the block was fetched
    there (where it was not, the block index has not moved since the point before), for any proof data over the
    region-entry arrays (`hA`) whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the block was fetched
    there (where it was not, the block index has not moved since the point before), for any proof data over the
    region-entry arrays (`hA`) whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the block was fetched
    there (where it was not, the block index has not moved since the point before), for any proof data over the
    region-entry arrays (`hA`) whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the block was fetched
    there (where it was not, the block index has not moved since the point before), for any proof data over the
    region-entry arrays (`hA`) whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the block was fetched
    there (where it was not, the block index has not moved since the point before), for any proof data over the
    region-entry arrays (`hA`) whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the reduction coordinate is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the reduction coordinate is 3), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- At the points of case A the output window is idle: the case stores nothing into it. -/
theorem idleAt1_6_A : ∀ t : Fin cfg1.N, cond1_0 (grid1.coords t) → ¬cond1_1 (grid1.coords t) → cfg1.idle 6 (grid1.coords t) = true := by decide +kernel
/-- At the points of case A the output's block is not written back. -/
theorem noFlush1_6_A : ∀ t : Fin cfg1.N, cond1_0 (grid1.coords t) → ¬cond1_1 (grid1.coords t) → (cfg1.win 6).flush t = false := by decide +kernel
/-- At the points of case B the output window is idle: the case stores nothing into it. -/
theorem idleAt1_6_B : ∀ t : Fin cfg1.N, ¬cond1_0 (grid1.coords t) → ¬cond1_1 (grid1.coords t) → cfg1.idle 6 (grid1.coords t) = true := by decide +kernel
/-- At the points of case B the output's block is not written back. -/
theorem noFlush1_6_B : ∀ t : Fin cfg1.N, ¬cond1_0 (grid1.coords t) → ¬cond1_1 (grid1.coords t) → (cfg1.win 6).flush t = false := by decide +kernel
/-- At the points of case C the output window is live: the case stores the loss block into it. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated (the choice does not matter). -/
abbrev VO1_6 : View sig .tc .vmem S128x128 .f32 := (Memref.whole cc1_stg6_0 : Memref sig .tc .vmem S128x128 .f32).view
/-- Each window's current staging memref at point `t`, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S128x128 .f32 := Memref.whole cc1_scratch0
/-- The accumulator as a view: what it holds is stated through it. -/
abbrev VS1_0 : View sig .tc .vmem S128x128 .f32 := scM1_0.view

/-- What the launch hands the region, with the accumulator as a memref owned at some contents: the first
    pallas_call's six staging buffers each at some contents, the accumulator at some contents, and the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's run, case by case -/

set_option maxHeartbeats 1000000 in
/-- CASE A (the reduction axis's first point: the accumulator is zeroed, then added to; the output block is not
    stored). What the body's stores leave in the output's staging memref and in the accumulator, as pieces (last
    first), with the proof that on whole memrefs — the six inputs at their blocks, the output's at contents `xi6`
    handed back untouched, the accumulator at anything — the body runs to a continuation holding the inputs as they
    were, the output's memref as it was and the accumulator with its pieces written. -/
noncomputable def kernelRun1_A (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) :
    Σ' (L6 : List (View.Piece (Elt F) S128x128 .f32)), { LS0 : List (View.Piece (Elt F) S128x128 .f32) //
      ∀ (xi6 : Vec F S128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9 arg10 harg10) K } := by
  refine ⟨[], ?_, fun xi6 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

set_option maxHeartbeats 1000000 in
/-- CASE B (an inner point of the reduction axis: the accumulator is added to; the output block is not stored).
    As case A, the accumulator entering at what the point before left (`xs0`). -/
noncomputable def kernelRun1_B (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) :
    Σ' (L6 : List (View.Piece (Elt F) S128x128 .f32)), { LS0 : List (View.Piece (Elt F) S128x128 .f32) //
      ∀ (xi6 : Vec F S128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9 arg10 harg10) K } := by
  refine ⟨[], ?_, fun xi6 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

set_option maxHeartbeats 1000000 in
/-- CASE C (the reduction axis's last point: the accumulator is added to, then the loss block is computed from it
    and stored into the output's staging memref). The accumulator enters at what the point before left (`xs0`),
    the output's memref at anything; both end with their pieces written. -/
noncomputable def kernelRun1_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) :
    Σ' (L6 : List (View.Piece (Elt F) S128x128 .f32)), { LS0 : List (View.Piece (Elt F) S128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9 arg10 harg10) K } := by
  refine ⟨?_, ?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.Kernel.Hand

end
-- ==== Proof.BitsRegion1.lean ====
/- Region 1 of the idealized kernel (the pairwise-loss pallas_call, its VMEM accumulator carried along the last grid
   axis), continued: what each case of the body leaves in the output's staging buffer and in the accumulator, the
   accumulation point by point, the region invariant, the proof data and the body obligation. Generic in the float
   instance and in the region-entry contents `V`. -/
import proofs.«109424_j51367808860812_1_alg».proof.Proof.BitsRegion1Runs

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- In case A (the reduction axis's first point) nothing is stored into the output window (it is idle there and not written back): no pieces —
    a placeholder that nothing consults, since at these points the window is neither written back nor read at the next
    point. -/
def out1_A_6 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) : Vec F S128x128 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

/-- The pieces case A (the reduction axis's first point) leaves in the accumulator cover it: each is one whole-block store. -/
theorem scover1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (y : S128x128.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S128x128.size (by sl_kernel_rfl) y

/-- What case A (the reduction axis's first point) leaves in the accumulator: its pieces read back over junk. -/
def sout1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) : Vec F S128x128 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

/-- In case B (an inner point of the reduction axis) nothing is stored into the output window (it is idle there and not written back): no pieces —
    a placeholder that nothing consults, since at these points the window is neither written back nor read at the next
    point. -/
def out1_B_6 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) : Vec F S128x128 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)

/-- The pieces case B (an inner point of the reduction axis) leaves in the accumulator cover it: each is one whole-block store. -/
theorem scover1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) (y : S128x128.Idx) :
    ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).2.1 S128x128.size (by sl_kernel_rfl) y

/-- What case B (an inner point of the reduction axis) leaves in the accumulator: its pieces read back over junk. -/
def sout1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) : Vec F S128x128 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

/-- The piece case C stores into the output window — the loss block, one whole-block store — covers it. -/
theorem cover1_C_6 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) (y : S128x128.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S128x128.size (by sl_kernel_rfl) y

/-- What case C leaves in the output's staging buffer: its piece read back over junk. -/
def out1_C_6 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) : Vec F S128x128 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)

/-- The pieces case C (the reduction axis's last point) leaves in the accumulator cover it: each is one whole-block store. -/
theorem scover1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) (y : S128x128.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S128x128.size (by sl_kernel_rfl) y

/-- What case C (the reduction axis's last point) leaves in the accumulator: its pieces read back over junk. -/
def sout1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) : Vec F S128x128 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)

/-! ## What the output and the accumulator hold after each point -/

/-- THE ACCUMULATION. What the output's staging buffer and the accumulator hold after the body at position `n` (the
    output's contents, then the accumulator's): the case the closed forms select at `n`, run at the point's memrefs and
    input blocks, the accumulator entering at what position `n - 1` left in it. Both conditions at once is no point. -/
def outsAt1 (c : Dev nD) : (n : ℕ) → n < cfg1.N → Vec F S128x128 .f32 × Vec F S128x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The first pallas_call's six staging buffers, each whole at some contents: scoped buffers this region never
    touches, carried through its invariant as one conjunct. -/
def R6 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f))

/-- The region invariant before position `n`: before the first point what the launch hands the region (every scoped
    buffer that is no staging buffer of this region at some contents, the generator register at some state);
    afterwards the same with the accumulator at what the point before left in it (`outsAt1`'s second component). -/
def PhiS1 (c : Dev nD) : (n : ℕ) → n ≤ cfg1.N → sProp 𝕄
  | 0, _ => Pipeline.ΦA spec1 c
  | n + 1, hn => iprop(R6 c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(R6 c ∗ owns (c : Thread nD τ) scM1_0 fullShare ((outsAt1 V c n hn).2) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(R6 c ∗ owns (c : Thread nD τ) scM1_0 fullShare ((outsAt1 V c (n - 1) (by omega)).2) ∗ (∃ r, prngReg c r)) := by
  cases n with
  | zero => exact absurd rfl hz
  | succ n => rfl

/-! ## The proof data -/

/-- The proof data of the region on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms say which case the point is in; the
    case's run applies. The invariant hands the body the accumulator at what the point before left (at anything at the
    first point) and the generator register at some state, keeps the other scoped buffers aside, and takes the accumulator
    back at this point's contents (its pieces cover it); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨E0, E1, E2, E3, E4, E5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [E0 E1 E2 E3 E4 E5 HS0 Hg]
        · isplitl [E0 E1 E2 E3 E4 E5]
          · unfold R6
            isplitl [E0]; · iexact E0
            isplitl [E1]; · iexact E1
            isplitl [E2]; · iexact E2
            isplitl [E3]; · iexact E3
            isplitl [E4]; · iexact E4
            iexact E5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; have hN : t.val < 16 := lt_of_lt_of_eq t.isLt (show cfg1.N = 16 from N_1); omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; have hN : t.val < 16 := lt_of_lt_of_eq t.isLt (show cfg1.N = 16 from N_1); omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold R6
  iintro ⟨⟨E0, E1, E2, E3, E4, E5⟩, HS0, Hg⟩
  isplitl [E0 E1 E2 E3 E4 E5 HS0]
  · isplitl [E0]; · iexact E0
    isplitl [E1]; · iexact E1
    isplitl [E2]; · iexact E2
    isplitl [E3]; · iexact E3
    isplitl [E4]; · iexact E4
    isplitl [E5]; · iexact E5
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.BitsRun.lean ====
/-
  The run of the whole program, by hand: @main is four segments — the host operations that slice the weight matrix and
  reshape the small operands, the projection kernel, the pairwise kernel, the closing reshape — and the contents of
  every unscoped buffer at each boundary are a fold from the launch memory: a stretch of host operations applies them,
  a kernel region replaces its arrays by what its write-backs leave. Every weakly fair execution terminates with each
  buffer at the end of that fold; the arguments are written by no segment, and the result buffer holds the pairwise
  kernel's output matrix reshaped to a flat vector.
-/
import proofs.«109424_j51367808860812_1_alg».proof.Proof.BitsRegion0
import proofs.«109424_j51367808860812_1_alg».proof.Proof.BitsRegion1
import proofs.«109424_j51367808860812_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main: a fold from the launch memory -/

/-- Core c's buffers at launch. -/
abbrev W0 : Dev nD → Valuation τ sig (Elt F) := fun c b => m (c, b)
/-- After the host operations that slice the weight matrix and reshape the small operands: the first kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection kernel's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the pairwise kernel's exit: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape of the loss matrix to a flat vector: the return. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer of each core holds the fold W4 of the launch memory through @main. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## Reading the fold back: the arguments end as launched, the result is the reshaped loss matrix -/

theorem W1_of (c : Dev nD) (r : Ref sig .tc) (h : r ∉ hostOps0_W) : W1 m c r = W0 m c r :=
  StableHlo.after_of_writes_sub hostOps0 _ hostOps0_writes h
theorem W4_of (c : Dev nD) (r : Ref sig .tc) (h : r ∉ hostOps2_W) : W4 m c r = W3 m c r :=
  StableHlo.after_of_writes_sub hostOps2 _ hostOps2_writes h

theorem W4_main_arg0 (c : Dev nD) : W4 m c main_arg0 = m ((c : Thread nD τ).loc main_arg0) :=
  (W4_of m c main_arg0 (by decide)).trans <| (W3_of_ne m c main_arg0 (by decide)).trans <|
    ((W2_arr m c 0).trans (((dat0 (V1 m) c).arrAt_in 0 rfl _).trans (A_eq0 (V1 m) c 0))).trans <| (W1_of m c main_arg0 (by decide)).trans rfl
theorem W4_main_arg1 (c : Dev nD) : W4 m c main_arg1 = m ((c : Thread nD τ).loc main_arg1) :=
  (W4_of m c main_arg1 (by decide)).trans <| (W3_of_ne m c main_arg1 (by decide)).trans <|
    (W2_of_ne m c main_arg1 (by decide)).trans <| (W1_of m c main_arg1 (by decide)).trans rfl
theorem W4_main_arg2 (c : Dev nD) : W4 m c main_arg2 = m ((c : Thread nD τ).loc main_arg2) :=
  (W4_of m c main_arg2 (by decide)).trans <| (W3_of_ne m c main_arg2 (by decide)).trans <|
    (W2_of_ne m c main_arg2 (by decide)).trans <| (W1_of m c main_arg2 (by decide)).trans rfl
theorem W4_main_arg3 (c : Dev nD) : W4 m c main_arg3 = m ((c : Thread nD τ).loc main_arg3) :=
  (W4_of m c main_arg3 (by decide)).trans <| (W3_of_ne m c main_arg3 (by decide)).trans <|
    (W2_of_ne m c main_arg3 (by decide)).trans <| (W1_of m c main_arg3 (by decide)).trans rfl
theorem W4_main_arg4 (c : Dev nD) : W4 m c main_arg4 = m ((c : Thread nD τ).loc main_arg4) :=
  (W4_of m c main_arg4 (by decide)).trans <| (W3_of_ne m c main_arg4 (by decide)).trans <|
    (W2_of_ne m c main_arg4 (by decide)).trans <| (W1_of m c main_arg4 (by decide)).trans rfl
theorem W4_main_arg5 (c : Dev nD) : W4 m c main_arg5 = m ((c : Thread nD τ).loc main_arg5) :=
  (W4_of m c main_arg5 (by decide)).trans <| (W3_of_ne m c main_arg5 (by decide)).trans <|
    (W2_of_ne m c main_arg5 (by decide)).trans <| (W1_of m c main_arg5 (by decide)).trans rfl

/-- The frame: every argument array ends holding its launch contents. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The result buffer ends holding the pairwise kernel's output array, reshaped to a flat vector. -/
theorem W4_main_v10 (c : Dev nD) :
    (W4 m c main_v10 : S65536.Idx → F .f32) = shapeCast S65536 ((dat1 (V2 m) c).arrAt 6 cfg1.N : S256x256.Idx → F .f32) shapeCasts_S256x256_S65536 := by
  rw [← W3_arr m c 6]
  show StableHlo.after hostOps2 (W3 m c) (Proc.devRef .tc main_v10) = _
  after_results
  rfl

/-- What the first kernel finds in the operands the host operations prepared: the two halves of the weight matrix and
    the reshaped bias, second-layer weights, second-layer bias and labels. -/
theorem V1_main_arg0 (c : Dev nD) : V1 m c main_arg0 = m ((c : Thread nD τ).loc main_arg0) := (W1_of m c main_arg0 (by decide)).trans rfl
theorem V1_main_v0 (c : Dev nD) : (V1 m c main_v0 : S512x512.Idx → F .f32) = extractStridedSlice S512x512 ![0, 0] (m ((c : Thread nD τ).loc main_arg2)) slices_S1024x512_S512x512_0_0 := by
  show StableHlo.after hostOps0 (W0 m c) (Proc.devRef .tc main_v0) = _
  after_results
theorem V1_main_v1 (c : Dev nD) : (V1 m c main_v1 : S512x512.Idx → F .f32) = extractStridedSlice S512x512 ![512, 0] (m ((c : Thread nD τ).loc main_arg2)) slices_S1024x512_S512x512_512_0 := by
  show StableHlo.after hostOps0 (W0 m c) (Proc.devRef .tc main_v1) = _
  after_results
theorem V1_main_v2 (c : Dev nD) : (V1 m c main_v2 : S1x512.Idx → F .f32) = shapeCast S1x512 (m ((c : Thread nD τ).loc main_arg3)) shapeCasts_S512_S1x512 := by
  show StableHlo.after hostOps0 (W0 m c) (Proc.devRef .tc main_v2) = _
  after_results
  rfl
theorem V1_main_v4 (c : Dev nD) : (V1 m c main_v4 : S1x512.Idx → F .f32) = shapeCast S1x512 (shapeCast S512 (m ((c : Thread nD τ).loc main_arg4)) shapeCasts_S512x1_S512) shapeCasts_S512_S1x512 := by
  show StableHlo.after hostOps0 (W0 m c) (Proc.devRef .tc main_v4) = _
  after_results
  rfl
theorem V1_main_v5 (c : Dev nD) : (V1 m c main_v5 : S1x1.Idx → F .f32) = shapeCast S1x1 (m ((c : Thread nD τ).loc main_arg5)) shapeCasts_S1_S1x1 := by
  show StableHlo.after hostOps0 (W0 m c) (Proc.devRef .tc main_v5) = _
  after_results
  rfl
theorem V1_main_v6 (c : Dev nD) : (V1 m c main_v6 : S256x1.Idx → BitVec 32) = shapeCast S256x1 (m ((c : Thread nD τ).loc main_arg1)) shapeCasts_S256_S256x1 := by
  show StableHlo.after hostOps0 (W0 m c) (Proc.devRef .tc main_v6) = _
  after_results
  rfl
theorem V1_main_v7 (c : Dev nD) : (V1 m c main_v7 : S1x256.Idx → BitVec 32) = shapeCast S1x256 (m ((c : Thread nD τ).loc main_arg1)) shapeCasts_S256_S1x256 := by
  show StableHlo.after hostOps0 (W0 m c) (Proc.devRef .tc main_v7) = _
  after_results
  rfl
/-- The second kernel finds those operands as the first did, and the two projections the first kernel wrote. -/
theorem V2_of_V1 (c : Dev nD) (b : Ref sig .tc) (hb : ∀ w, Pipeline.arrRef spec0 w ≠ b) : V2 m c b = V1 m c b := W2_of_ne m c b hb
theorem V2_main_v8_0 (c : Dev nD) : V2 m c main_v8_0 = (dat0 (V1 m) c).arrAt 4 cfg0.N := W2_arr m c 4
theorem V2_main_v8_1 (c : Dev nD) : V2 m c main_v8_1 = (dat0 (V1 m) c).arrAt 5 cfg0.N := W2_arr m c 5

end Cert.Kernel.Hand

end
-- ==== Proof.Spec.lean ====
/-
  The mathematics of the pairwise loss, stated once over the argument arrays: for a batch of 256 embeddings of width 512,
  a dense layer whose 1024 x 512 weight matrix is read in two halves (rows 0..511 multiply the second member of a pair,
  rows 512..1023 the first), a relu, a second dense layer of width one, a logistic, a clamp to [lo, hi], and the binary
  cross-entropy against the indicator that the two members carry the same label. Entry k = 256 i + j of the result is
  the loss of the pair (i, j). Everything is over the extended reals.
-/
import Idealize.ShloMosaic.PureOps.Ideal
import Idealize.ShloMosaic.Lib.ValueIdx

noncomputable section

open scoped BigOperators

namespace Cert.PairLoss

open Idealize.ShloMosaic Idealize.ShloMosaic.ValueIdx

/-- The clamp's lower bound, the f32 word nearest 1e-7. -/
abbrev lo : EReal := Ideal.ofBits .f32 0x33D6BF95#32
/-- The clamp's upper bound, the f32 word nearest 1 - 1e-7. -/
abbrev hi : EReal := Ideal.ofBits .f32 0x3F7FFFFE#32
/-- The f32 word of 1. -/
abbrev one : EReal := Ideal.ofBits .f32 0x3F800000#32
/-- The f32 word of +0. -/
abbrev zero : EReal := Ideal.ofBits .f32 0x00000000#32

/-- Row d of the weight matrix's upper half. -/
abbrev lowRow (d : Fin 512) : Fin 1024 := ⟨d.val, by have := d.isLt; omega⟩
/-- Row d of the weight matrix's lower half. -/
abbrev highRow (d : Fin 512) : Fin 1024 := ⟨512 + d.val, by have := d.isLt; omega⟩

section
variable (emb : FVec Ideal ⟨2, ![256, 512]⟩ .f32) (lab : IVec ⟨1, ![256]⟩ 32) (W1 : FVec Ideal ⟨2, ![1024, 512]⟩ .f32)
  (b1 : FVec Ideal ⟨1, ![512]⟩ .f32) (W2 : FVec Ideal ⟨2, ![512, 1]⟩ .f32) (b2 : FVec Ideal ⟨1, ![1]⟩ .f32)

/-- Embedding j against the upper half of the weights, plus the bias: the part of the hidden pre-activation that
    depends on the pair's second member. -/
def projA (j : Fin 256) (h : Fin 512) : EReal :=
  (∑ d : Fin 512, emb (ix2 j d) * W1 (ix2 (lowRow d) h)) + b1 (ix1 h)

/-- Embedding i against the lower half of the weights: the part that depends on the pair's first member. -/
def projB (i : Fin 256) (h : Fin 512) : EReal :=
  ∑ d : Fin 512, emb (ix2 i d) * W1 (ix2 (highRow d) h)

/-- The hidden unit h of the pair (i, j) after the relu. -/
def hidden (i j : Fin 256) (h : Fin 512) : EReal :=
  max (projB emb W1 i h + projA emb W1 b1 j h) zero

/-- The pair's logit. -/
def logit (i j : Fin 256) : EReal :=
  (∑ h : Fin 512, hidden emb W1 b1 i j h * W2 (ix2 h (0 : Fin 1))) + b2 (ix1 (0 : Fin 1))

/-- The pair's clamped probability. -/
def prob (i j : Fin 256) : EReal :=
  min hi (max lo (Ideal.logistic (logit emb W1 b1 W2 b2 i j)))

/-- The indicator that two label words are equal, as a real. -/
def tgt (a b : BitVec 32) : EReal := if a = b then ((1 : ℝ) : EReal) else ((0 : ℝ) : EReal)

/-- The cross-entropy of a clamped probability p against a target t. -/
def bce (t p : EReal) : EReal :=
  zero - (t * Ideal.log p + (one - t) * Ideal.log1p (zero - p))

/-- The pair's loss. -/
def loss (i j : Fin 256) : EReal :=
  bce (tgt (lab (ix1 i)) (lab (ix1 j))) (prob emb W1 b1 W2 b2 i j)

/-- The whole result: entry 256 i + j is the loss of the pair (i, j). -/
def G : FVec Ideal ⟨1, ![65536]⟩ .f32 := fun k =>
  loss emb lab W1 b1 W2 b2 ⟨(k 0).val / 256, by have : (k 0).val < 65536 := (k 0).isLt; omega⟩
    ⟨(k 0).val % 256, Nat.mod_lt _ (by decide)⟩

end

end Cert.PairLoss

end
-- ==== Proof.IdealRegion0.lean ====
/- REGION 0 of @main, the class-A half of the frame, at any float instance: the projection kernel
   `cc0__proj_kernel` on its one grid point reads the embedding block [256,512], the two halves of the first
   layer's weight [512,512] each and the bias row [1,512], and leaves in its two output buffers
   A = emb·W1a + b1 and Bm = emb·W1b, each one whole-array block. Stated at a PARAMETER `V`, the TensorCore's
   buffer contents when the region is entered: each window's block at the point (`iblk0`), what the body leaves
   in each output's buffer (`out0_4`, `out0_5`), the body's triple (`sound_kernel0`), the pipeline's proof
   data (`dat0`) and the body obligation (`body_obligation0`). -/
import proofs.«109424_j51367808860812_1_alg».proof.Proof.Gen.KernelIdeal.Launch
import proofs.«109424_j51367808860812_1_alg».proof.Proof.Gen.KernelIdeal.Skeleton
import proofs.«109424_j51367808860812_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! # REGION 0: the projection kernel `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the embedding block): its current staging buffer holds its block at every point, fetched there or
    not, for ANY proof data whose array is `V`'s (`hA`) and whose body leaves the block in place (`hafter`);
    the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight's upper half W1a): its current staging buffer holds its block at every point, fetched there or
    not, for ANY proof data whose array is `V`'s (`hA`) and whose body leaves the block in place (`hafter`);
    the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the weight's lower half W1b): its current staging buffer holds its block at every point, fetched there or
    not, for ANY proof data whose array is `V`'s (`hA`) and whose body leaves the block in place (`hafter`);
    the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the bias row b1): its current staging buffer holds its block at every point, fetched there or
    not, for ANY proof data whose array is `V`'s (`hA`) and whose body leaves the block in place (`hafter`);
    the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is a whole buffer -/

/-- The whole [256,512] buffer (the embedding block, and each output block). -/
abbrev rAct : Rect S256x512 := Rect.unit (s := S256x512) ![0, 0] S256x512.size inb_S256x512_S256x512_0_0
/-- The whole [512,512] buffer (a half of the weight). -/
abbrev rWgt : Rect S512x512 := Rect.unit (s := S512x512) ![0, 0] S512x512.size inb_S512x512_S512x512_0_0
/-- The whole [1,512] buffer (the bias row). -/
abbrev rBias : Rect S1x512 := Rect.unit (s := S1x512) ![0, 0] S1x512.size inb_S1x512_S1x512_0_0

/-! ## What the body leaves in each output window's buffer -/

/-- Window 4's staging buffer after the body, from the input blocks: its one store, the block
    A = emb·W1a + b1 (the payload is the skeleton's). -/
def out0_4 (x0 : Vec F S256x512 .f32) (x1 : Vec F S512x512 .f32) (x3 : Vec F S1x512 .f32) : Vec F S256x512 .f32 :=
  View.canon [⟨rAct, k0_pay2 (View.ld x0 rAct) (View.ld x1 rWgt) (View.ld x3 rBias)⟩]

/-- Window 5's staging buffer after the body, from the input blocks: its one store, the block Bm = emb·W1b. -/
def out0_5 (x0 : Vec F S256x512 .f32) (x2 : Vec F S512x512 .f32) : Vec F S256x512 .f32 :=
  View.canon [⟨rAct, k0_pay3 (View.ld x0 rAct) (View.ld x2 rWgt)⟩]

/-- The one store into window 4's buffer is the whole buffer, so it covers it. -/
theorem cover0_4 (p0 : Vec F S256x512 .f32) (y : S256x512.Idx) :
    ∃ pc ∈ ([⟨rAct, p0⟩] : List (View.Piece (Elt F) S256x512 .f32)), y ∈ pc.1.set :=
  View.cover_of_tiled [⟨rAct, p0⟩] S256x512.size (by rfl) y

/-- The one store into window 5's buffer is the whole buffer, so it covers it. -/
theorem cover0_5 (p0 : Vec F S256x512 .f32) (y : S256x512.Idx) :
    ∃ pc ∈ ([⟨rAct, p0⟩] : List (View.Piece (Elt F) S256x512 .f32)), y ∈ pc.1.set :=
  View.cover_of_tiled [⟨rAct, p0⟩] S256x512.size (by rfl) y

/-! ## The body's triple -/

set_option maxHeartbeats 1000000 in
/-- The kernel body on whole staging memrefs, the inputs' at read contents `xW` and the outputs' at anything, runs
    to the continuation holding the inputs' as they were and the outputs' at `out0_4`, `out0_5` of the inputs':
    the printed function is its skeleton, six whole-buffer loads (the two of the output buffers read values
    nothing uses) and the two whole-buffer stores. -/
theorem sound_kernel0 (c : Dev nD) (E : Set ℕ) (i : grid0.Coords) (arg1 : Memref sig .tc .vmem S256x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S256x512 .f32) (harg5 : arg5.IsWhole) (arg6 : Memref sig .tc .vmem S256x512 .f32) (harg6 : arg6.IsWhole)
    (x0 : Vec F S256x512 .f32) (x1 : Vec F S512x512 .f32) (x2 : Vec F S512x512 .f32) (x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x3) ∗ owns (c : Thread nD τ) arg6 fullShare (out0_5 x0 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    the point each input's buffer at its block, window 4's at A = emb·W1a + b1 and window 5's at Bm = emb·W1b
    of the input blocks (`out0_4`, `out0_5`); the invariant the class's (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
    | ⟨5, _⟩ => out0_5 (iblk0 V c 0 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 3 t) := by dsimp only [dat0]
theorem after0_5 (c : Dev nD) (t : Fin cfg0.N) :
    (dat0 V c).after 5 t = out0_5 (iblk0 V c 0 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.IdealRegion1Runs.lean ====
/- Region 1 of the idealized kernel (the pairwise-loss pallas_call on the grid (2, 2, 4), whose VMEM accumulator is
   carried along the last grid axis): the definitions its frame is stated over — the windows' blocks read off the
   region-entry arrays, the two branch conditions in closed form, where the output window is idle, the staging and
   scratch memrefs — and the body's run in each of the three cases of its conditionals. Generic in the float
   instance. -/
import proofs.«109424_j51367808860812_1_alg».proof.Proof.Gen.KernelIdeal.Launch
import proofs.«109424_j51367808860812_1_alg».proof.Proof.Gen.KernelIdeal.Skeleton
import proofs.«109424_j51367808860812_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the block was fetched
    there (where it was not, the block index has not moved since the point before), for any proof data over the
    region-entry arrays (`hA`) whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the block was fetched
    there (where it was not, the block index has not moved since the point before), for any proof data over the
    region-entry arrays (`hA`) whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the block was fetched
    there (where it was not, the block index has not moved since the point before), for any proof data over the
    region-entry arrays (`hA`) whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the block was fetched
    there (where it was not, the block index has not moved since the point before), for any proof data over the
    region-entry arrays (`hA`) whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the block was fetched
    there (where it was not, the block index has not moved since the point before), for any proof data over the
    region-entry arrays (`hA`) whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the block was fetched
    there (where it was not, the block index has not moved since the point before), for any proof data over the
    region-entry arrays (`hA`) whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the reduction coordinate is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the reduction coordinate is 3), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- At the points of case A the output window is idle: the case stores nothing into it. -/
theorem idleAt1_6_A : ∀ t : Fin cfg1.N, cond1_0 (grid1.coords t) → ¬cond1_1 (grid1.coords t) → cfg1.idle 6 (grid1.coords t) = true := by decide +kernel
/-- At the points of case A the output's block is not written back. -/
theorem noFlush1_6_A : ∀ t : Fin cfg1.N, cond1_0 (grid1.coords t) → ¬cond1_1 (grid1.coords t) → (cfg1.win 6).flush t = false := by decide +kernel
/-- At the points of case B the output window is idle: the case stores nothing into it. -/
theorem idleAt1_6_B : ∀ t : Fin cfg1.N, ¬cond1_0 (grid1.coords t) → ¬cond1_1 (grid1.coords t) → cfg1.idle 6 (grid1.coords t) = true := by decide +kernel
/-- At the points of case B the output's block is not written back. -/
theorem noFlush1_6_B : ∀ t : Fin cfg1.N, ¬cond1_0 (grid1.coords t) → ¬cond1_1 (grid1.coords t) → (cfg1.win 6).flush t = false := by decide +kernel
/-- At the points of case C the output window is live: the case stores the loss block into it. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated (the choice does not matter). -/
abbrev VO1_6 : View sig .tc .vmem S128x128 .f32 := (Memref.whole cc1_stg6_0 : Memref sig .tc .vmem S128x128 .f32).view
/-- Each window's current staging memref at point `t`, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S128x128 .f32 := Memref.whole cc1_scratch0
/-- The accumulator as a view: what it holds is stated through it. -/
abbrev VS1_0 : View sig .tc .vmem S128x128 .f32 := scM1_0.view

/-- What the launch hands the region, with the accumulator as a memref owned at some contents: the first
    pallas_call's six staging buffers each at some contents, the accumulator at some contents, and the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body's run, case by case -/

set_option maxHeartbeats 1000000 in
/-- CASE A (the reduction axis's first point: the accumulator is zeroed, then added to; the output block is not
    stored). What the body's stores leave in the output's staging memref and in the accumulator, as pieces (last
    first), with the proof that on whole memrefs — the six inputs at their blocks, the output's at contents `xi6`
    handed back untouched, the accumulator at anything — the body runs to a continuation holding the inputs as they
    were, the output's memref as it was and the accumulator with its pieces written. -/
noncomputable def kernelRun1_A (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) :
    Σ' (L6 : List (View.Piece (Elt F) S128x128 .f32)), { LS0 : List (View.Piece (Elt F) S128x128 .f32) //
      ∀ (xi6 : Vec F S128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9 arg10 harg10) K } := by
  refine ⟨[], ?_, fun xi6 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

set_option maxHeartbeats 1000000 in
/-- CASE B (an inner point of the reduction axis: the accumulator is added to; the output block is not stored).
    As case A, the accumulator entering at what the point before left (`xs0`). -/
noncomputable def kernelRun1_B (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) :
    Σ' (L6 : List (View.Piece (Elt F) S128x128 .f32)), { LS0 : List (View.Piece (Elt F) S128x128 .f32) //
      ∀ (xi6 : Vec F S128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9 arg10 harg10) K } := by
  refine ⟨[], ?_, fun xi6 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

set_option maxHeartbeats 1000000 in
/-- CASE C (the reduction axis's last point: the accumulator is added to, then the loss block is computed from it
    and stored into the output's staging memref). The accumulator enters at what the point before left (`xs0`),
    the output's memref at anything; both end with their pieces written. -/
noncomputable def kernelRun1_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) :
    Σ' (L6 : List (View.Piece (Elt F) S128x128 .f32)), { LS0 : List (View.Piece (Elt F) S128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9 arg10 harg10) K } := by
  refine ⟨?_, ?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Hand

end
-- ==== Proof.IdealRegion1.lean ====
/- Region 1 of the idealized kernel (the pairwise-loss pallas_call, its VMEM accumulator carried along the last grid
   axis), continued: what each case of the body leaves in the output's staging buffer and in the accumulator, the
   accumulation point by point, the region invariant, the proof data and the body obligation. Generic in the float
   instance and in the region-entry contents `V`. -/
import proofs.«109424_j51367808860812_1_alg».proof.Proof.IdealRegion1Runs

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- In case A (the reduction axis's first point) nothing is stored into the output window (it is idle there and not written back): no pieces —
    a placeholder that nothing consults, since at these points the window is neither written back nor read at the next
    point. -/
def out1_A_6 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) : Vec F S128x128 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

/-- The pieces case A (the reduction axis's first point) leaves in the accumulator cover it: each is one whole-block store. -/
theorem scover1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (y : S128x128.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S128x128.size (by sl_kernel_rfl) y

/-- What case A (the reduction axis's first point) leaves in the accumulator: its pieces read back over junk. -/
def sout1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) : Vec F S128x128 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

/-- In case B (an inner point of the reduction axis) nothing is stored into the output window (it is idle there and not written back): no pieces —
    a placeholder that nothing consults, since at these points the window is neither written back nor read at the next
    point. -/
def out1_B_6 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) : Vec F S128x128 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)

/-- The pieces case B (an inner point of the reduction axis) leaves in the accumulator cover it: each is one whole-block store. -/
theorem scover1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) (y : S128x128.Idx) :
    ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).2.1 S128x128.size (by sl_kernel_rfl) y

/-- What case B (an inner point of the reduction axis) leaves in the accumulator: its pieces read back over junk. -/
def sout1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) : Vec F S128x128 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

/-- The piece case C stores into the output window — the loss block, one whole-block store — covers it. -/
theorem cover1_C_6 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) (y : S128x128.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S128x128.size (by sl_kernel_rfl) y

/-- What case C leaves in the output's staging buffer: its piece read back over junk. -/
def out1_C_6 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) : Vec F S128x128 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)

/-- The pieces case C (the reduction axis's last point) leaves in the accumulator cover it: each is one whole-block store. -/
theorem scover1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) (y : S128x128.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S128x128.size (by sl_kernel_rfl) y

/-- What case C (the reduction axis's last point) leaves in the accumulator: its pieces read back over junk. -/
def sout1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) : Vec F S128x128 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)

/-! ## What the output and the accumulator hold after each point -/

/-- THE ACCUMULATION. What the output's staging buffer and the accumulator hold after the body at position `n` (the
    output's contents, then the accumulator's): the case the closed forms select at `n`, run at the point's memrefs and
    input blocks, the accumulator entering at what position `n - 1` left in it. Both conditions at once is no point. -/
def outsAt1 (c : Dev nD) : (n : ℕ) → n < cfg1.N → Vec F S128x128 .f32 × Vec F S128x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The first pallas_call's six staging buffers, each whole at some contents: scoped buffers this region never
    touches, carried through its invariant as one conjunct. -/
def R6 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f))

/-- The region invariant before position `n`: before the first point what the launch hands the region (every scoped
    buffer that is no staging buffer of this region at some contents, the generator register at some state);
    afterwards the same with the accumulator at what the point before left in it (`outsAt1`'s second component). -/
def PhiS1 (c : Dev nD) : (n : ℕ) → n ≤ cfg1.N → sProp 𝕄
  | 0, _ => Pipeline.ΦA spec1 c
  | n + 1, hn => iprop(R6 c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(R6 c ∗ owns (c : Thread nD τ) scM1_0 fullShare ((outsAt1 V c n hn).2) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(R6 c ∗ owns (c : Thread nD τ) scM1_0 fullShare ((outsAt1 V c (n - 1) (by omega)).2) ∗ (∃ r, prngReg c r)) := by
  cases n with
  | zero => exact absurd rfl hz
  | succ n => rfl

/-! ## The proof data -/

/-- The proof data of the region on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms say which case the point is in; the
    case's run applies. The invariant hands the body the accumulator at what the point before left (at anything at the
    first point) and the generator register at some state, keeps the other scoped buffers aside, and takes the accumulator
    back at this point's contents (its pieces cover it); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨E0, E1, E2, E3, E4, E5, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [E0 E1 E2 E3 E4 E5 HS0 Hg]
        · isplitl [E0 E1 E2 E3 E4 E5]
          · unfold R6
            isplitl [E0]; · iexact E0
            isplitl [E1]; · iexact E1
            isplitl [E2]; · iexact E2
            isplitl [E3]; · iexact E3
            isplitl [E4]; · iexact E4
            iexact E5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; have hN : t.val < 16 := lt_of_lt_of_eq t.isLt (show cfg1.N = 16 from N_1); omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; have hN : t.val < 16 := lt_of_lt_of_eq t.isLt (show cfg1.N = 16 from N_1); omega
      · rw [PhiS1_castSucc V c t, PhiS1_pos V c _ _ hz]
        iintro ⟨⟨HR, HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold R6
  iintro ⟨⟨E0, E1, E2, E3, E4, E5⟩, HS0, Hg⟩
  isplitl [E0 E1 E2 E3 E4 E5 HS0]
  · isplitl [E0]; · iexact E0
    isplitl [E1]; · iexact E1
    isplitl [E2]; · iexact E2
    isplitl [E3]; · iexact E3
    isplitl [E4]; · iexact E4
    isplitl [E5]; · iexact E5
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.IdealRun.lean ====
/-
  The run of the whole program, by hand: @main is four segments — the host operations that slice the weight matrix and
  reshape the small operands, the projection kernel, the pairwise kernel, the closing reshape — and the contents of
  every unscoped buffer at each boundary are a fold from the launch memory: a stretch of host operations applies them,
  a kernel region replaces its arrays by what its write-backs leave. Every weakly fair execution terminates with each
  buffer at the end of that fold; the arguments are written by no segment, and the result buffer holds the pairwise
  kernel's output matrix reshaped to a flat vector.
-/
import proofs.«109424_j51367808860812_1_alg».proof.Proof.IdealRegion0
import proofs.«109424_j51367808860812_1_alg».proof.Proof.IdealRegion1
import proofs.«109424_j51367808860812_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main: a fold from the launch memory -/

/-- Core c's buffers at launch. -/
abbrev W0 : Dev nD → Valuation τ sig (Elt F) := fun c b => m (c, b)
/-- After the host operations that slice the weight matrix and reshape the small operands: the first kernel's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection kernel's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At the pairwise kernel's exit: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape of the loss matrix to a flat vector: the return. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer of each core holds the fold W4 of the launch memory through @main. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (W4 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## Reading the fold back: the arguments end as launched, the result is the reshaped loss matrix -/

theorem W1_of (c : Dev nD) (r : Ref sig .tc) (h : r ∉ hostOps0_W) : W1 m c r = W0 m c r :=
  StableHlo.after_of_writes_sub hostOps0 _ hostOps0_writes h
theorem W4_of (c : Dev nD) (r : Ref sig .tc) (h : r ∉ hostOps2_W) : W4 m c r = W3 m c r :=
  StableHlo.after_of_writes_sub hostOps2 _ hostOps2_writes h

theorem W4_main_arg0 (c : Dev nD) : W4 m c main_arg0 = m ((c : Thread nD τ).loc main_arg0) :=
  (W4_of m c main_arg0 (by decide)).trans <| (W3_of_ne m c main_arg0 (by decide)).trans <|
    ((W2_arr m c 0).trans (((dat0 (V1 m) c).arrAt_in 0 rfl _).trans (A_eq0 (V1 m) c 0))).trans <| (W1_of m c main_arg0 (by decide)).trans rfl
theorem W4_main_arg1 (c : Dev nD) : W4 m c main_arg1 = m ((c : Thread nD τ).loc main_arg1) :=
  (W4_of m c main_arg1 (by decide)).trans <| (W3_of_ne m c main_arg1 (by decide)).trans <|
    (W2_of_ne m c main_arg1 (by decide)).trans <| (W1_of m c main_arg1 (by decide)).trans rfl
theorem W4_main_arg2 (c : Dev nD) : W4 m c main_arg2 = m ((c : Thread nD τ).loc main_arg2) :=
  (W4_of m c main_arg2 (by decide)).trans <| (W3_of_ne m c main_arg2 (by decide)).trans <|
    (W2_of_ne m c main_arg2 (by decide)).trans <| (W1_of m c main_arg2 (by decide)).trans rfl
theorem W4_main_arg3 (c : Dev nD) : W4 m c main_arg3 = m ((c : Thread nD τ).loc main_arg3) :=
  (W4_of m c main_arg3 (by decide)).trans <| (W3_of_ne m c main_arg3 (by decide)).trans <|
    (W2_of_ne m c main_arg3 (by decide)).trans <| (W1_of m c main_arg3 (by decide)).trans rfl
theorem W4_main_arg4 (c : Dev nD) : W4 m c main_arg4 = m ((c : Thread nD τ).loc main_arg4) :=
  (W4_of m c main_arg4 (by decide)).trans <| (W3_of_ne m c main_arg4 (by decide)).trans <|
    (W2_of_ne m c main_arg4 (by decide)).trans <| (W1_of m c main_arg4 (by decide)).trans rfl
theorem W4_main_arg5 (c : Dev nD) : W4 m c main_arg5 = m ((c : Thread nD τ).loc main_arg5) :=
  (W4_of m c main_arg5 (by decide)).trans <| (W3_of_ne m c main_arg5 (by decide)).trans <|
    (W2_of_ne m c main_arg5 (by decide)).trans <| (W1_of m c main_arg5 (by decide)).trans rfl

/-- The frame: every argument array ends holding its launch contents. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The result buffer ends holding the pairwise kernel's output array, reshaped to a flat vector. -/
theorem W4_main_v10 (c : Dev nD) :
    (W4 m c main_v10 : S65536.Idx → F .f32) = shapeCast S65536 ((dat1 (V2 m) c).arrAt 6 cfg1.N : S256x256.Idx → F .f32) shapeCasts_S256x256_S65536 := by
  rw [← W3_arr m c 6]
  show StableHlo.after hostOps2 (W3 m c) (Proc.devRef .tc main_v10) = _
  after_results
  rfl

/-- What the first kernel finds in the operands the host operations prepared: the two halves of the weight matrix and
    the reshaped bias, second-layer weights, second-layer bias and labels. -/
theorem V1_main_arg0 (c : Dev nD) : V1 m c main_arg0 = m ((c : Thread nD τ).loc main_arg0) := (W1_of m c main_arg0 (by decide)).trans rfl
theorem V1_main_v0 (c : Dev nD) : (V1 m c main_v0 : S512x512.Idx → F .f32) = extractStridedSlice S512x512 ![0, 0] (m ((c : Thread nD τ).loc main_arg2)) slices_S1024x512_S512x512_0_0 := by
  show StableHlo.after hostOps0 (W0 m c) (Proc.devRef .tc main_v0) = _
  after_results
theorem V1_main_v1 (c : Dev nD) : (V1 m c main_v1 : S512x512.Idx → F .f32) = extractStridedSlice S512x512 ![512, 0] (m ((c : Thread nD τ).loc main_arg2)) slices_S1024x512_S512x512_512_0 := by
  show StableHlo.after hostOps0 (W0 m c) (Proc.devRef .tc main_v1) = _
  after_results
theorem V1_main_v2 (c : Dev nD) : (V1 m c main_v2 : S1x512.Idx → F .f32) = shapeCast S1x512 (m ((c : Thread nD τ).loc main_arg3)) shapeCasts_S512_S1x512 := by
  show StableHlo.after hostOps0 (W0 m c) (Proc.devRef .tc main_v2) = _
  after_results
  rfl
theorem V1_main_v4 (c : Dev nD) : (V1 m c main_v4 : S1x512.Idx → F .f32) = shapeCast S1x512 (shapeCast S512 (m ((c : Thread nD τ).loc main_arg4)) shapeCasts_S512x1_S512) shapeCasts_S512_S1x512 := by
  show StableHlo.after hostOps0 (W0 m c) (Proc.devRef .tc main_v4) = _
  after_results
  rfl
theorem V1_main_v5 (c : Dev nD) : (V1 m c main_v5 : S1x1.Idx → F .f32) = shapeCast S1x1 (m ((c : Thread nD τ).loc main_arg5)) shapeCasts_S1_S1x1 := by
  show StableHlo.after hostOps0 (W0 m c) (Proc.devRef .tc main_v5) = _
  after_results
  rfl
theorem V1_main_v6 (c : Dev nD) : (V1 m c main_v6 : S256x1.Idx → BitVec 32) = shapeCast S256x1 (m ((c : Thread nD τ).loc main_arg1)) shapeCasts_S256_S256x1 := by
  show StableHlo.after hostOps0 (W0 m c) (Proc.devRef .tc main_v6) = _
  after_results
  rfl
theorem V1_main_v7 (c : Dev nD) : (V1 m c main_v7 : S1x256.Idx → BitVec 32) = shapeCast S1x256 (m ((c : Thread nD τ).loc main_arg1)) shapeCasts_S256_S1x256 := by
  show StableHlo.after hostOps0 (W0 m c) (Proc.devRef .tc main_v7) = _
  after_results
  rfl
/-- The second kernel finds those operands as the first did, and the two projections the first kernel wrote. -/
theorem V2_of_V1 (c : Dev nD) (b : Ref sig .tc) (hb : ∀ w, Pipeline.arrRef spec0 w ≠ b) : V2 m c b = V1 m c b := W2_of_ne m c b hb
theorem V2_main_v8_0 (c : Dev nD) : V2 m c main_v8_0 = (dat0 (V1 m) c).arrAt 4 cfg0.N := W2_arr m c 4
theorem V2_main_v8_1 (c : Dev nD) : V2 m c main_v8_1 = (dat0 (V1 m) c).arrAt 5 cfg0.N := W2_arr m c 5

end Cert.KernelIdeal.Hand

end
-- ==== Proof.IdealValue0.lean ====
/- REGION 0 of @main, the value half, at any float instance: what the projection kernel `cc0__proj_kernel`
   leaves in its two result ARRAYS. The grid has ONE point and every window's block is its whole array, so
   each input block at the point is the array as the region finds it (`V`) read through zero offsets
   (`iblk0_0` … `iblk0_3`), each output's one whole-buffer store leaves its payload of the whole-buffer loads
   (`out0_4_whole`, `out0_5_whole`), the point's write-back of each output is block (0, 0) of that payload
   (`flushed0_4`, `flushed0_5`), and that block covers the array: the result arrays end holding
   A = emb·W1a + b1 (`final0_4`) and Bm = emb·W1b (`final0_5`) of the entry contents of the embedding, the two
   halves of the first layer's weight and the bias row. -/
import proofs.«109424_j51367808860812_1_alg».proof.Proof.IdealRegion0
import Idealize.ShloMosaic.Lib.Pipeline.Value

-- membership in a rectangle of these extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Value0
-- the TensorCore's buffer contents when the region is entered
variable (V : (c : Dev nD) → (b : Ref sig .tc) → Buf (Elt F) ((c : Thread nD τ).loc b))

/-! # REGION 0, the value: the two result arrays of the projection kernel, at the entry contents `V` -/

/-- The offsets of every access of the body and of every block of the one point: zero on both axes. -/
theorem zeroOffsets : (![0, 0] : Fin 2 → Nat) = fun _ => 0 := funext fun a => by fin_cases a <;> rfl

/-! ## The input blocks are the arrays

The grid's one point has block index (0, 0) in every window and the block's sizes are the array's: the block read
through the window is the array read through zero offsets, the array itself. -/

/-- The embedding block [256,512] at the point is the embedding as the region finds it. -/
theorem iblk0_0 (c : Dev nD) (t : Fin cfg0.N) : (iblk0 V c 0 t : Vec F S256x512 .f32) = V c main_arg0 := by
  obtain rfl : t = t0_0 := fin_N0 t
  unfold iblk0
  have hz' : (fun a => win0_0.index t0_0 a * main_arg0.ty.shape.size a) = fun _ => 0 :=
    funext fun a => by fin_cases a <;> decide +kernel
  exact Memref.read_access_unit_zero (Elt F) main_arg0 hz' (fun a => by rw [congrFun hz' a]; simp) (V c main_arg0)

/-- The block [512,512] of the weight's upper half W1a (rows 0..511 of the first layer's weight) is that half. -/
theorem iblk0_1 (c : Dev nD) (t : Fin cfg0.N) : (iblk0 V c 1 t : Vec F S512x512 .f32) = V c main_v0 := by
  obtain rfl : t = t0_0 := fin_N0 t
  unfold iblk0
  have hz' : (fun a => win0_1.index t0_0 a * main_v0.ty.shape.size a) = fun _ => 0 :=
    funext fun a => by fin_cases a <;> decide +kernel
  exact Memref.read_access_unit_zero (Elt F) main_v0 hz' (fun a => by rw [congrFun hz' a]; simp) (V c main_v0)

/-- The block [512,512] of the weight's lower half W1b (rows 512..1023) is that half. -/
theorem iblk0_2 (c : Dev nD) (t : Fin cfg0.N) : (iblk0 V c 2 t : Vec F S512x512 .f32) = V c main_v1 := by
  obtain rfl : t = t0_0 := fin_N0 t
  unfold iblk0
  have hz' : (fun a => win0_2.index t0_0 a * main_v1.ty.shape.size a) = fun _ => 0 :=
    funext fun a => by fin_cases a <;> decide +kernel
  exact Memref.read_access_unit_zero (Elt F) main_v1 hz' (fun a => by rw [congrFun hz' a]; simp) (V c main_v1)

/-- The block [1,512] of the bias row b1 is the bias row. -/
theorem iblk0_3 (c : Dev nD) (t : Fin cfg0.N) : (iblk0 V c 3 t : Vec F S1x512 .f32) = V c main_v2 := by
  obtain rfl : t = t0_0 := fin_N0 t
  unfold iblk0
  have hz' : (fun a => win0_3.index t0_0 a * main_v2.ty.shape.size a) = fun _ => 0 :=
    funext fun a => by fin_cases a <;> decide +kernel
  exact Memref.read_access_unit_zero (Elt F) main_v2 hz' (fun a => by rw [congrFun hz' a]; simp) (V c main_v2)

/-! ## What the body leaves is the payload of the whole buffers

Each output buffer takes ONE store, through the whole-buffer rectangle at zero offsets, and its payload's loads go
through the whole-buffer rectangles of the inputs: the store leaves the payload, the loads read the contents. -/

/-- Window 4's buffer after the body is A = emb·W1a + b1 of the input buffers' contents. -/
theorem out0_4_whole (x0 : Vec F S256x512 .f32) (x1 : Vec F S512x512 .f32) (x3 : Vec F S1x512 .f32) :
    out0_4 x0 x1 x3 = k0_pay2 x0 x1 x3 := by
  unfold out0_4
  rw [View.canon_unit_zero zeroOffsets]
  simp only [View.ld_unit_zero (S := S256x512) zeroOffsets, View.ld_unit_zero (S := S512x512) zeroOffsets,
    View.ld_unit_zero (S := S1x512) zeroOffsets]

/-- Window 5's buffer after the body is Bm = emb·W1b of the input buffers' contents. -/
theorem out0_5_whole (x0 : Vec F S256x512 .f32) (x2 : Vec F S512x512 .f32) :
    out0_5 x0 x2 = k0_pay3 x0 x2 := by
  unfold out0_5
  rw [View.canon_unit_zero zeroOffsets]
  simp only [View.ld_unit_zero (S := S256x512) zeroOffsets, View.ld_unit_zero (S := S512x512) zeroOffsets]

/-! ## The write-backs

The one point writes back, for each output, what the body left: block (0, 0) of the [256,512] array read through
zero offsets is the array, so the written block is the block of the whole-array value. -/

/-- The write-back of A: the block of emb·W1a + b1 of the ARRAYS as the region finds them. -/
theorem flushed0_4 (c : Dev nD) (t : Fin cfg0.N) (hf : (cfg0.win 4).flush t = true) :
    (dat0 V c).flushed 4 t
      = ((cfg0.win 4).blk t).view.read (Elt F)
          (k0_pay2 (V c main_arg0) (V c main_v0) (V c main_v2) : Buf (Elt F) ((c : Thread nD τ).loc main_v8_0)) := by
  obtain rfl : t = t0_0 := fin_N0 t
  show (cfg0.win 4).cut (grid0.coords t0_0) ((dat0 V c).after 4 t0_0) = _
  rw [after0_4, out0_4_whole, iblk0_0, iblk0_1, iblk0_3]
  have hz' : (fun a => win0_4.index t0_0 a * main_v8_0.ty.shape.size a) = fun _ => 0 :=
    funext fun a => by fin_cases a <;> decide +kernel
  exact (Memref.read_access_unit_zero (Elt F) main_v8_0 hz' (fun a => by rw [congrFun hz' a]; simp) _).symm

/-- The write-back of Bm: the block of emb·W1b of the ARRAYS as the region finds them. -/
theorem flushed0_5 (c : Dev nD) (t : Fin cfg0.N) (hf : (cfg0.win 5).flush t = true) :
    (dat0 V c).flushed 5 t
      = ((cfg0.win 5).blk t).view.read (Elt F)
          (k0_pay3 (V c main_arg0) (V c main_v1) : Buf (Elt F) ((c : Thread nD τ).loc main_v8_1)) := by
  obtain rfl : t = t0_0 := fin_N0 t
  show (cfg0.win 5).cut (grid0.coords t0_0) ((dat0 V c).after 5 t0_0) = _
  rw [after0_5, out0_5_whole, iblk0_0, iblk0_2]
  have hz' : (fun a => win0_5.index t0_0 a * main_v8_1.ty.shape.size a) = fun _ => 0 :=
    funext fun a => by fin_cases a <;> decide +kernel
  exact (Memref.read_access_unit_zero (Elt F) main_v8_1 hz' (fun a => by rw [congrFun hz' a]; simp) _).symm

/-! ## The result arrays

The one point's block starts at (0, 0) and has the array's extents 256 × 512: every index of the array is in it. -/

/-- After the region the first result array holds A = emb·W1a + b1 of the entry contents. -/
theorem final0_4 (c : Dev nD) : (dat0 V c).arrAt 4 cfg0.N = k0_pay2 (V c main_arg0) (V c main_v0) (V c main_v2) :=
  (dat0 V c).arrAt_eq_of_cover 4 (k0_pay2 (V c main_arg0) (V c main_v0) (V c main_v2)) (flushed0_4 V c) fun i =>
    ⟨t0_0, flush0_4 t0_0, by
      show i ∈ ((View.whole main_v8_0).slice (win0_4.rect t0_0)).set
      rw [View.set_slice_whole, Rect.mem_set_unit]
      intro a
      have h0 : (i 0 : Nat) < 256 := (i 0).isLt
      have h1 : (i 1 : Nat) < 512 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 256 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 512 from by decide +kernel]; omega⟩

/-- After the region the second result array holds Bm = emb·W1b of the entry contents. -/
theorem final0_5 (c : Dev nD) : (dat0 V c).arrAt 5 cfg0.N = k0_pay3 (V c main_arg0) (V c main_v1) :=
  (dat0 V c).arrAt_eq_of_cover 5 (k0_pay3 (V c main_arg0) (V c main_v1)) (flushed0_5 V c) fun i =>
    ⟨t0_0, flush0_5 t0_0, by
      show i ∈ ((View.whole main_v8_1).slice (win0_5.rect t0_0)).set
      rw [View.set_slice_whole, Rect.mem_set_unit]
      intro a
      have h0 : (i 0 : Nat) < 256 := (i 0).isLt
      have h1 : (i 1 : Nat) < 512 := (i 1).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 256 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 512 from by decide +kernel]; omega⟩

end Value0

end Cert.KernelIdeal.Hand

end
-- ==== Proof.PayValue.lean ====
/-
  The kernel's stored values read at an index, over the extended reals. Kernel 0 stores two matrix products of the
  embedding block with the two halves of the first layer's weights (the first with the bias row added); kernel 1 stores
  a zero block, the accumulator's update by one step's 128 hidden units, and at the last step the loss block: the binary
  cross-entropy of the clamped logistic of the accumulated logit against the indicator that the row's and the column's
  labels are the same word. Each statement reads one element (one row and column of the block) as the closed expression
  over the elements of the blocks the kernel loaded.
-/
import proofs.«109424_j51367808860812_1_alg».proof.Proof.Spec
import proofs.«109424_j51367808860812_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Cert.PairLoss Idealize.ShloMosaic Idealize.ShloMosaic.ValueIdx

/-! ## The projection's matrix product read at an index

The two products of kernel 0 share one set of dimension numbers: the left operand's axis 1 is contracted against the
right operand's axis 0. At the result index (j, h) and contraction position d the left operand is read at (j, d) and the
right one at (d, h). -/

theorem lhs_proj_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs_proj_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem rhs_proj_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem rhs_proj_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The product into a zero accumulator, at (j, h): the sum over d of the left operand at (j, d) times the right one at
    (d, h). -/
theorem proj_matmul_apply (x : FVec Ideal S256x512 .bf16) (w : FVec Ideal S512x512 .bf16) (j : Fin 256) (h : Fin 512) :
    matmul dot_S256x512_S512x512_S256x512_1_0_0_1_n_n none x w (constant (F := Ideal) S256x512 .f32 0x00000000#32) (ix2 j h)
      = ∑ d : Fin 512, x (ix2 j d) * w (ix2 d h) := by
  simp only [matmul]
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 j h) ((contrEquiv1 dot_S256x512_S512x512_S256x512_1_0_0_1_n_n 512 rfl rfl).symm k) = ix2 j k := funext fun a => Fin.ext (by
    match a with
    | ⟨0, _⟩ => exact lhs_proj_0 _ _
    | ⟨1, _⟩ => exact (lhs_proj_1 _ _).trans hk)
  have er : dot_S256x512_S512x512_S256x512_1_0_0_1_n_n.rhsIdx (ix2 j h) ((contrEquiv1 dot_S256x512_S512x512_S256x512_1_0_0_1_n_n 512 rfl rfl).symm k) = ix2 k h := funext fun a => Fin.ext (by
    match a with
    | ⟨0, _⟩ => exact (rhs_proj_0 _ _).trans hk
    | ⟨1, _⟩ => exact rhs_proj_1 _ _)
  rw [el, er]

/-! ## Kernel 0's two stores -/

/-- The first store of kernel 0 at (j, h): the embedding's row j against column h of the first weight block, plus the
    bias at h (the bias block has one row, read at every j). -/
theorem pay_projA (x0 : Vec Ideal S256x512 .f32) (x1 : Vec Ideal S512x512 .f32) (x3 : Vec Ideal S1x512 .f32) (j : Fin 256) (h : Fin 512) :
    k0_pay2 (F := Ideal) x0 x1 x3 (ix2 j h) = (∑ d : Fin 512, x0 (ix2 j d) * x1 (ix2 d h)) + x3 (ix2 (0 : Fin 1) h) := by
  unfold k0_pay2 k0_pay1
  refine (addf_apply _ _ _).trans ?_
  refine congrArg₂ (· + ·) ?_ ?_
  · refine (proj_matmul_apply _ _ j h).trans ?_
    refine Finset.sum_congr rfl fun d _ => ?_
    refine congrArg₂ (· * ·) rfl ?_
    exact congrArg (fun f : S512x512.Idx → EReal => f (ix2 d h)) (shapeCast_self x1 shapeCasts_S512x512_S512x512)
  · refine (broadcastTo_1b_ab_apply _ _ j h).trans ?_
    exact congrArg (fun f : S1x512.Idx → EReal => f (ix2 (0 : Fin 1) h)) (shapeCast_self x3 shapeCasts_S1x512_S1x512)

/-- The second store of kernel 0 at (i, h): the embedding's row i against column h of the second weight block. -/
theorem pay_projB (x0 : Vec Ideal S256x512 .f32) (x2 : Vec Ideal S512x512 .f32) (i : Fin 256) (h : Fin 512) :
    k0_pay3 (F := Ideal) x0 x2 (ix2 i h) = ∑ d : Fin 512, x0 (ix2 i d) * x2 (ix2 d h) := by
  unfold k0_pay3 k0_pay1
  refine (proj_matmul_apply _ _ i h).trans ?_
  refine Finset.sum_congr rfl fun d _ => ?_
  refine congrArg₂ (· * ·) rfl ?_
  exact congrArg (fun f : S512x512.Idx → EReal => f (ix2 d h)) (shapeCast_self x2 shapeCasts_S512x512_S512x512)

/-! ## Layout operations of kernel 1 read at (r, c, k)

The accumulator update forms, for every pair (r, c) of the block and every lane k, the value B[r, k] + A[c, k]: the
first block gets a unit middle axis and is repeated along it, the second a unit leading axis and is repeated along it,
and the weight row gets two unit leading axes and is repeated along both. -/

section Layout
variable {α : Type}

/-- A [128, 1, 128] array repeated along its unit middle axis reads, at (r, c, k), the operand at (r, 0, k). -/
theorem broadcastTo_a1c_abc_apply (v : (⟨3, ![128, 1, 128]⟩ : Shape).Idx → α)
    (h : (⟨3, ![128, 1, 128]⟩ : Shape).Broadcasts ⟨3, ![128, 128, 128]⟩) (r c k : Fin 128) :
    broadcastTo ⟨3, ![128, 128, 128]⟩ v h (ix3 r c k) = v (ix3 r (0 : Fin 1) k) := by
  refine broadcastTo_apply v h (ix3 r c k) (ix3 r (0 : Fin 1) k) fun ax => ?_
  match ax with
  | ⟨0, _⟩ => rfl
  | ⟨1, _⟩ => rfl
  | ⟨2, _⟩ => rfl

/-- A [1, 128, 128] array repeated along its unit leading axis reads, at (r, c, k), the operand at (0, c, k). -/
theorem broadcastTo_1bc_abc_apply (v : (⟨3, ![1, 128, 128]⟩ : Shape).Idx → α)
    (h : (⟨3, ![1, 128, 128]⟩ : Shape).Broadcasts ⟨3, ![128, 128, 128]⟩) (r c k : Fin 128) :
    broadcastTo ⟨3, ![128, 128, 128]⟩ v h (ix3 r c k) = v (ix3 (0 : Fin 1) c k) := by
  refine broadcastTo_apply v h (ix3 r c k) (ix3 (0 : Fin 1) c k) fun ax => ?_
  match ax with
  | ⟨0, _⟩ => rfl
  | ⟨1, _⟩ => rfl
  | ⟨2, _⟩ => rfl

/-- A [1, 1, 128] array repeated along its two unit axes reads, at (r, c, k), the operand at (0, 0, k). -/
theorem broadcastTo_11c_abc_apply (v : (⟨3, ![1, 1, 128]⟩ : Shape).Idx → α)
    (h : (⟨3, ![1, 1, 128]⟩ : Shape).Broadcasts ⟨3, ![128, 128, 128]⟩) (r c k : Fin 128) :
    broadcastTo ⟨3, ![128, 128, 128]⟩ v h (ix3 r c k) = v (ix3 (0 : Fin 1) (0 : Fin 1) k) := by
  refine broadcastTo_apply v h (ix3 r c k) (ix3 (0 : Fin 1) (0 : Fin 1) k) fun ax => ?_
  match ax with
  | ⟨0, _⟩ => rfl
  | ⟨1, _⟩ => rfl
  | ⟨2, _⟩ => rfl

/-- A [128, 128] array cast to [128, 1, 128] reads, at (r, u, k), the operand at (r, k). -/
theorem shapeCast_ac_a1c_apply (x : (⟨2, ![128, 128]⟩ : Shape).Idx → α)
    (h : (⟨2, ![128, 128]⟩ : Shape).ShapeCasts ⟨3, ![128, 1, 128]⟩) (r : Fin 128) (u : Fin 1) (k : Fin 128) :
    shapeCast ⟨3, ![128, 1, 128]⟩ x h (ix3 r u k) = x (ix2 r k) :=
  shapeCast_apply x h _ _ (by
    have hu : u.val = 0 := by omega
    rw [Shape.rowMajor_val_three, Shape.rowMajor_val_two]
    show r.val * 128 + k.val = (r.val * 1 + u.val) * 128 + k.val
    rw [hu, Nat.mul_one, Nat.add_zero])

/-- A [128, 1] column repeated along its unit axis reads, at (r, c), the column at r. -/
theorem broadcastTo_a1_ab_apply (v : (⟨2, ![128, 1]⟩ : Shape).Idx → α)
    (h : (⟨2, ![128, 1]⟩ : Shape).Broadcasts ⟨2, ![128, 128]⟩) (r c : Fin 128) :
    broadcastTo ⟨2, ![128, 128]⟩ v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- The one element of a [1, 1] block, extracted at position (0, 0). -/
theorem extractAt_11_apply (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) := by
  unfold extractAt
  refine congrArg x (funext fun a => Fin.ext ?_)
  match a with
  | ⟨0, _⟩ => rfl
  | ⟨1, _⟩ => rfl

end Layout

/-- The sum over the lanes: a [128, 128, 128] array summed over its last axis reads, at (r, c), the sum over k of the
    array at (r, c, k). -/
theorem laneSum_apply (v : FVec Ideal S128x128x128 .f32) (hφ : FKind.Formats .f32)
    (hacc : (0x00000000#32 : BitVec 32) = 0x00000000#32) (r c : Fin 128) :
    multiReduction .add [2] S128x128 v 0x00000000#32 reduces_S128x128x128_S128x128 hφ hacc (ix2 r c)
      = ∑ k : Fin 128, v (ix3 r c k) := by
  refine (Ideal.multiReduction_add_single v 0x00000000#32 reduces_S128x128x128_S128x128 hφ hacc (ix2 r c)).trans ?_
  refine Finset.sum_congr rfl fun k _ => congrArg v (funext fun a => Fin.ext ?_)
  match a with
  | ⟨0, _⟩ => rfl
  | ⟨1, _⟩ => rfl
  | ⟨2, _⟩ => rfl

/-! ## Kernel 1's three stores -/

/-- The block the accumulator is reset to: zero everywhere. -/
theorem pay_zero (y : S128x128.Idx) : k1_pay1 (F := Ideal) y = zero := by
  unfold k1_pay1
  exact congrArg (fun f : S128x128.Idx → EReal => f y) (shapeCast_self _ shapeCasts_S128x128_S128x128)

/-- The accumulator update at (r, c): what was there plus, over the 128 hidden units k of this step, the relu of
    B[r, k] + A[c, k] times the second layer's weight at k. -/
theorem pay_acc (v3 v5 : Vec Ideal S128x128 .f32) (v14 : Vec Ideal S1x128 .f32) (v20 : Vec Ideal S128x128 .f32) (r c : Fin 128) :
    k1_pay2 (F := Ideal) v3 v5 v14 v20 (ix2 r c)
      = v20 (ix2 r c) + ∑ k : Fin 128, max (v3 (ix2 r k) + v5 (ix2 c k)) zero * v14 (ix2 (0 : Fin 1) k) := by
  unfold k1_pay2
  refine (congrArg (fun f : S128x128.Idx → EReal => f (ix2 r c)) (shapeCast_self _ shapeCasts_S128x128_S128x128)).trans ?_
  refine (addf_apply _ _ _).trans ?_
  refine congrArg (v20 (ix2 r c) + ·) ?_
  refine (laneSum_apply _ _ _ r c).trans ?_
  refine Finset.sum_congr rfl fun k _ => ?_
  refine (mulf_apply _ _ _).trans ?_
  refine congrArg₂ (· * ·) ?_ ?_
  · refine (maximumf_apply _ _ _).trans ?_
    refine congrArg₂ max ?_ rfl
    refine (addf_apply _ _ _).trans ?_
    refine congrArg₂ (· + ·) ?_ ?_
    · refine (broadcastTo_a1c_abc_apply _ _ r c k).trans ?_
      refine (shapeCast_ac_a1c_apply _ _ r 0 k).trans ?_
      exact congrArg (fun f : S128x128.Idx → EReal => f (ix2 r k)) (shapeCast_self v3 shapeCasts_S128x128_S128x128)
    · refine (broadcastTo_1bc_abc_apply _ _ r c k).trans ?_
      refine (shapeCast_ab_1ab_apply _ _ 0 c k).trans ?_
      exact congrArg (fun f : S128x128.Idx → EReal => f (ix2 c k)) (shapeCast_self v5 shapeCasts_S128x128_S128x128)
  · refine (broadcastTo_11c_abc_apply _ _ r c k).trans ?_
    refine (shapeCast_ab_1ab_apply _ _ 0 0 k).trans ?_
    exact congrArg (fun f : S1x128.Idx → EReal => f (ix2 (0 : Fin 1) k)) (shapeCast_self v14 shapeCasts_S1x128_S1x128)

/-! ## The loss block read at (r, c) -/

/-- The equality word of two labels, widened to 32 bits and read as a signed integer, is the target: 1 when the
    labels are the same word, 0 otherwise. -/
theorem eqWord_tgt (a b : BitVec 32) :
    FloatOps.sitofp (F := Ideal) .f32 ((IntOp.cmpi .eq a b).setWidth 32) = tgt a b := by
  show ((((BitVec.ofBool (a == b)).setWidth 32).toInt : ℝ) : EReal) = if a = b then ((1 : ℝ) : EReal) else ((0 : ℝ) : EReal)
  by_cases h : a = b
  · have hb : (a == b) = true := beq_iff_eq.mpr h
    have h1 : ((BitVec.ofBool true).setWidth 32).toInt = 1 := by decide
    rw [if_pos h, hb, h1, Int.cast_one]
  · have hb : (a == b) = false := beq_eq_false_iff_ne.mpr h
    have h0 : ((BitVec.ofBool false).setWidth 32).toInt = 0 := by decide
    rw [if_neg h, hb, h0, Int.cast_zero]

/-- The target at (r, c): the label column is repeated along the rows' lanes and the label row along the rows, the two
    are compared for equality, and the bit is read as a float. -/
theorem sameLabel_apply (v38 : IVec S128x1 32) (v40 : IVec S1x128 32) (r c : Fin 128) :
    (sitofp .f32 (extui 32 (cmpi .eq
        (broadcastTo S128x128 (shapeCast S128x1 v38 shapeCasts_S128x1_S128x1) broadcasts_S128x1_S128x128)
        (broadcastTo S128x128 (shapeCast S1x128 v40 shapeCasts_S1x128_S1x128) broadcasts_S1x128_S128x128)) natLt_1_32)
      : FVec Ideal S128x128 .f32) (ix2 r c) = tgt (v38 (ix2 r (0 : Fin 1))) (v40 (ix2 (0 : Fin 1) c)) := by
  refine Eq.trans ?_ (eqWord_tgt (v38 (ix2 r (0 : Fin 1))) (v40 (ix2 (0 : Fin 1) c)))
  show FloatOps.sitofp (F := Ideal) .f32 ((IntOp.cmpi .eq
      (broadcastTo S128x128 (shapeCast S128x1 v38 shapeCasts_S128x1_S128x1) broadcasts_S128x1_S128x128 (ix2 r c))
      (broadcastTo S128x128 (shapeCast S1x128 v40 shapeCasts_S1x128_S1x128) broadcasts_S1x128_S128x128 (ix2 r c))).setWidth 32) = _
  refine congrArg (fun w : BitVec 1 => FloatOps.sitofp (F := Ideal) .f32 (w.setWidth 32)) ?_
  refine congrArg₂ (IntOp.cmpi .eq) ?_ ?_
  · refine (broadcastTo_a1_ab_apply _ _ r c).trans ?_
    exact congrArg (fun f : S128x1.Idx → BitVec 32 => f (ix2 r (0 : Fin 1))) (shapeCast_self v38 shapeCasts_S128x1_S128x1)
  · refine (broadcastTo_1b_ab_apply _ _ r c).trans ?_
    exact congrArg (fun f : S1x128.Idx → BitVec 32 => f (ix2 (0 : Fin 1) c)) (shapeCast_self v40 shapeCasts_S1x128_S1x128)

/-- The clamped probability at (r, c): the logistic of the accumulated logit plus the second layer's bias (the one
    element of its block), clamped below by lo and above by hi. -/
theorem clampedProb_apply (v28 : FVec Ideal S128x128 .f32) (v29 : FVec Ideal S1x1 .f32) (r c : Fin 128) :
    minimumf (broadcast S128x128 (Scalar.ofBits (F := Ideal) .f32 0x3F7FFFFE#32))
        (maximumf (broadcast S128x128 (Scalar.ofBits (F := Ideal) .f32 0x33D6BF95#32))
          (logistic (addf v28 (broadcast S128x128 (extractAt ![0, 0] v29 inpos_S1x1_p0_0))))) (ix2 r c)
      = min hi (max lo (Ideal.logistic (v28 (ix2 r c) + v29 (ix2 (0 : Fin 1) (0 : Fin 1))))) := by
  show min hi (max lo (Ideal.logistic (v28 (ix2 r c) + extractAt ![0, 0] v29 inpos_S1x1_p0_0))) = _
  exact congrArg (fun z : EReal => min hi (max lo (Ideal.logistic (v28 (ix2 r c) + z)))) (extractAt_11_apply v29 inpos_S1x1_p0_0)

/-- The loss block at (r, c): the cross-entropy of the clamped probability against the target. -/
theorem pay_loss (v28 : Vec Ideal S128x128 .f32) (v29 : Vec Ideal S1x1 .f32) (v38 : Vec Ideal S128x1 .i32) (v40 : Vec Ideal S1x128 .i32) (r c : Fin 128) :
    k1_pay3 (F := Ideal) v28 v29 v38 v40 (ix2 r c)
      = bce (tgt (v38 (ix2 r (0 : Fin 1))) (v40 (ix2 (0 : Fin 1) c)))
          (min hi (max lo (Ideal.logistic (v28 (ix2 r c) + v29 (ix2 (0 : Fin 1) (0 : Fin 1)))))) := by
  unfold k1_pay3 bce
  refine (subf_apply _ _ _).trans ?_
  refine congrArg₂ (· - ·) rfl ?_
  refine (addf_apply _ _ _).trans ?_
  refine congrArg₂ (· + ·) ?_ ?_
  · refine (mulf_apply _ _ _).trans ?_
    refine congrArg₂ (· * ·) (sameLabel_apply v38 v40 r c) ?_
    exact congrArg Ideal.log (clampedProb_apply v28 v29 r c)
  · refine (mulf_apply _ _ _).trans ?_
    refine congrArg₂ (· * ·) ?_ ?_
    · refine (subf_apply _ _ _).trans ?_
      exact congrArg₂ (· - ·) rfl (sameLabel_apply v38 v40 r c)
    · refine congrArg Ideal.log1p ?_
      refine (subf_apply _ _ _).trans ?_
      exact congrArg₂ (· - ·) rfl (clampedProb_apply v28 v29 r c)

end Cert.KernelIdeal.PayValue

end
-- ==== Proof.IdealLayout.lean ====
/-
  The host part of the pairwise-loss program only re-lays arrays out: it cuts the 1024 x 512 first-layer weight matrix
  into its upper and lower halves, and it reshapes the first-layer bias, the second-layer weight column, the second-layer
  bias, the label vector (once as a column, once as a row) and, at the end, the 256 x 256 matrix of pair losses into a
  vector of length 65536. Each of these operations is read here at an index: the entry of the result at given coordinates
  is the entry of the operand at the coordinates named on the right. The shapes are the program's literal ones; the
  element type is any float family's f32 (or the 32-bit words of the labels), since a layout operation never looks at an
  element. Last comes the splitting of a sum over the 512 hidden units into four consecutive blocks of 128, added up from
  the f32 zero in the order the blocks are visited.
-/
import proofs.«109424_j51367808860812_1_alg».proof.KernelIdeal
import proofs.«109424_j51367808860812_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layout

open Cert.KernelIdeal Cert.PairLoss Idealize.ShloMosaic Idealize.ShloMosaic.ValueIdx

variable {G : FTy → Type}

/-! ## The two halves of the first layer's weight matrix -/

/-- The upper half (rows 0..511) of the weight matrix reads, at (d, H), the matrix at (d, H). -/
theorem slice_low (W : S1024x512.Idx → G .f32) (h : S1024x512.Slices ![0, 0] S512x512) (d H : Fin 512) :
    extractStridedSlice S512x512 ![0, 0] W h (ix2 d H) = W (ix2 (lowRow d) H) :=
  slice2_axis0_apply 0 W h d H (lowRow d) (Nat.zero_add _).symm

/-- The lower half (rows 512..1023) of the weight matrix reads, at (d, H), the matrix at (512 + d, H). -/
theorem slice_high (W : S1024x512.Idx → G .f32) (h : S1024x512.Slices ![512, 0] S512x512) (d H : Fin 512) :
    extractStridedSlice S512x512 ![512, 0] W h (ix2 d H) = W (ix2 (highRow d) H) :=
  slice2_axis0_apply 512 W h d H (highRow d) rfl

/-! ## The reshapes of the small operands -/

/-- The first layer's bias as a 1 x 512 row reads, at (0, H), the bias at H. -/
theorem cast_bias (b : S512.Idx → G .f32) (h : S512.ShapeCasts S1x512) (H : Fin 512) :
    shapeCast S1x512 b h (ix2 (0 : Fin 1) H) = b (ix1 H) :=
  shapeCast_a_1a_apply b h 0 H

/-- The second layer's 512 x 1 weight column, flattened to length 512 and then laid as a 1 x 512 row, reads, at (0, H),
the column at (H, 0): entry H of a column of width one is at row-major position H * 1 + 0 = H. -/
theorem cast_col (w : S512x1.Idx → G .f32) (h1 : S512x1.ShapeCasts S512) (h2 : S512.ShapeCasts S1x512) (H : Fin 512) :
    shapeCast S1x512 (shapeCast S512 w h1) h2 (ix2 (0 : Fin 1) H) = w (ix2 H (0 : Fin 1)) :=
  (shapeCast_a_1a_apply (shapeCast S512 w h1) h2 0 H).trans
    (shapeCast_apply w h1 (ix1 H) (ix2 H (0 : Fin 1)) (by
      rw [Shape.rowMajor_val_two, Shape.rowMajor_val_one]
      show H.val * 1 + 0 = H.val
      rw [Nat.mul_one, Nat.add_zero]))

/-- The second layer's one bias as a 1 x 1 matrix reads, at (0, 0), the bias. -/
theorem cast_one (b : S1.Idx → G .f32) (h : S1.ShapeCasts S1x1) :
    shapeCast S1x1 b h (ix2 (0 : Fin 1) (0 : Fin 1)) = b (ix1 (0 : Fin 1)) :=
  shapeCast_a_1a_apply b h 0 0

/-- The labels as a 256 x 1 column read, at (I, 0), the label I: row-major position I * 1 + 0 = I. -/
theorem cast_lab_col (l : S256.Idx → BitVec 32) (h : S256.ShapeCasts S256x1) (I : Fin 256) :
    shapeCast S256x1 l h (ix2 I (0 : Fin 1)) = l (ix1 I) :=
  shapeCast_apply l h (ix2 I (0 : Fin 1)) (ix1 I) (by
    rw [Shape.rowMajor_val_two, Shape.rowMajor_val_one]
    show I.val = I.val * 1 + 0
    rw [Nat.mul_one, Nat.add_zero])

/-- The labels as a 1 x 256 row read, at (0, J), the label J. -/
theorem cast_lab_row (l : S256.Idx → BitVec 32) (h : S256.ShapeCasts S1x256) (J : Fin 256) :
    shapeCast S1x256 l h (ix2 (0 : Fin 1) J) = l (ix1 J) :=
  shapeCast_a_1a_apply l h 0 J

/-! ## The result flattened -/

/-- The 256 x 256 matrix of pair losses flattened to length 65536 reads, at k, the matrix at (k / 256, k % 256):
row-major position (k / 256) * 256 + k % 256 = k. -/
theorem cast_flat (M : S256x256.Idx → G .f32) (h : S256x256.ShapeCasts S65536) (k : S65536.Idx) :
    shapeCast S65536 M h k
      = M (ix2 (⟨(k 0).val / 256, by have : (k 0).val < 65536 := (k 0).isLt; omega⟩ : Fin 256)
          (⟨(k 0).val % 256, Nat.mod_lt _ (by decide)⟩ : Fin 256)) :=
  shapeCast_apply M h k _ (by
    rw [Shape.rowMajor_val_two, Shape.rowMajor_val_one]
    show (k 0).val / 256 * 256 + (k 0).val % 256 = (k 0).val
    exact Nat.div_add_mod' _ _)

/-! ## A sum over the 512 hidden units, in four blocks of 128 -/

/-- A sum over 512 = 128 + 128 + 128 + 128 indices is the f32 zero (which is 0) plus the sums over the four consecutive
blocks of 128, added in order: the splitting of a sum over a disjoint union, three times. -/
theorem sum_four_blocks (f : Fin 512 → EReal) :
    ∑ H : Fin 512, f H
      = (((zero + ∑ k : Fin 128, f ⟨k.val, by have := k.isLt; omega⟩)
            + ∑ k : Fin 128, f ⟨128 + k.val, by have := k.isLt; omega⟩)
          + ∑ k : Fin 128, f ⟨256 + k.val, by have := k.isLt; omega⟩)
        + ∑ k : Fin 128, f ⟨384 + k.val, by have := k.isLt; omega⟩ := by
  rw [show zero = (0 : EReal) from Ideal.ofBits_zero_f32, zero_add,
    Fin.sum_univ_add (a := 384) (b := 128), Fin.sum_univ_add (a := 256) (b := 128), Fin.sum_univ_add (a := 128) (b := 128)]
  refine congrArg₂ (· + ·) (congrArg₂ (· + ·) (congrArg₂ (· + ·) ?_ ?_) ?_) ?_ <;>
    exact Finset.sum_congr rfl fun c _ => congrArg f (Fin.ext rfl)

end Cert.KernelIdeal.Layout

end
-- ==== Proof.IdealAccDef.lean ====
/-
  The running contents of the pairwise kernel's accumulator, and the loss matrix its write-backs assemble, as
  functions of the blocks the kernel's windows read: after the grid point n the accumulator holds the update of the
  point's three operand blocks applied to what the point before left, or to the zero block when n opens a new pass
  over the hidden axis (n a multiple of 4); the output block of the pair of row blocks (bi, bj) is written at the
  last point of its pass, n = 8 bi + 4 bj + 3, from the accumulator there and the labels' and bias's blocks.
-/
import proofs.«109424_j51367808860812_1_alg».proof.Proof.IdealRegion1Runs
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- The accumulator's contents after grid point n. -/
def acc1 (c : Dev nD) : (n : ℕ) → n < cfg1.N → Vec F S128x128 .f32
  | 0, h => k1_pay2 (iblk1 V c 0 ⟨0, h⟩) (iblk1 V c 1 ⟨0, h⟩) (iblk1 V c 2 ⟨0, h⟩) k1_pay1
  | n + 1, h => k1_pay2 (iblk1 V c 0 ⟨n + 1, h⟩) (iblk1 V c 1 ⟨n + 1, h⟩) (iblk1 V c 2 ⟨n + 1, h⟩)
      (if (n + 1) % 4 = 0 then k1_pay1 else acc1 c n (Nat.lt_of_succ_lt h))

/-- The last grid point of the pass over the hidden axis for the pair of row blocks (bi, bj). -/
def flushPt (bi bj : Fin 2) : Fin cfg1.N :=
  ⟨8 * bi.val + 4 * bj.val + 3, by have := bi.isLt; have := bj.isLt; rw [show cfg1.N = 16 from N_1]; omega⟩

/-- The output block written at a grid point that closes a pass. -/
def lossBlock (c : Dev nD) (t : Fin cfg1.N) : Vec F S128x128 .f32 :=
  k1_pay3 (acc1 V c t.val t.isLt) (iblk1 V c 5 t) (iblk1 V c 3 t) (iblk1 V c 4 t)

/-- The whole loss matrix: entry (I, J) lies in block (I / 128, J / 128) at (I % 128, J % 128). -/
def lossOf (c : Dev nD) : S256x256.Idx → F .f32 := fun y =>
  lossBlock V c (flushPt ⟨(y 0).val / 128, by have : (y 0).val < 256 := (y 0).isLt; omega⟩
      ⟨(y 1).val / 128, by have : (y 1).val < 256 := (y 1).isLt; omega⟩)
    (ix2 (⟨(y 0).val % 128, Nat.mod_lt _ (by decide)⟩ : Fin 128) (⟨(y 1).val % 128, Nat.mod_lt _ (by decide)⟩ : Fin 128))

end Cert.KernelIdeal.Hand

end
-- ==== Proof.IdealAccum.lean ====
/-
  The accumulator of the pairwise kernel, read as a value: what each of the three cases of the body leaves in the
  accumulator (and, at the last point of a pass over the hidden axis, in the output block) is the update payload
  (the loss payload) of the blocks the windows hold; hence, by induction on the grid point, the accumulator after
  point n is the running value `acc1` — the update of the point's three operand blocks applied to the zero block
  where n opens a pass (n a multiple of 4) and to the value at n − 1 otherwise — and the output block stored at the
  last point of a pass (n ≡ 3 mod 4) is the loss block of the accumulator there, the bias block and the labels'
  column and row blocks. Generic in the float instance and in the region-entry contents `V`.
-/
import proofs.«109424_j51367808860812_1_alg».proof.Proof.IdealRegion1
import proofs.«109424_j51367808860812_1_alg».proof.Proof.IdealAccDef
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## What each case leaves, as payloads of the blocks -/

/-- The zero offsets of a rank-2 block, as the constant function. -/
theorem hz : (![0, 0] : Fin 2 → Nat) = fun _ => 0 := funext fun a => by fin_cases a <;> rfl

/-- An inner point of the pass: the accumulator, entering at `xs0`, leaves at the update of the point's three operand
    blocks applied to `xs0` — the one covering store's payload, its loads reading the whole buffers. -/
theorem scratch_B (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) :
    sout1_B_0 c i arg3 harg3 arg4 harg4 arg5 harg5 arg6 harg6 arg7 harg7 arg8 harg8 arg9 harg9 arg10 harg10 hc0 hc1 x0 x1 x2 x3 x4 x5 xs0 = k1_pay2 x0 x1 x2 xs0 := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 x3 x4 x5 xs0)]
  unfold kernelRun1_B
  dsimp only
  sl_unfold_words
  rw [View.canon_unit_zero hz]
  simp only [View.readAt_eq_ld, harg3.read_unread, harg4.read_unread, harg5.read_unread, harg10.read_unread,
    View.ld_unit_zero (S := S128x128) hz, View.ld_unit_zero (S := S1x128) hz, shapeCast_self]

/-- The first point of a pass: the accumulator is set to the zero block, read back, and leaves at the update of the
    point's three operand blocks applied to the zero block. -/
theorem scratch_A (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 : Vec F S128x128 .f32) (x1 : Vec F S128x128 .f32) (x2 : Vec F S1x128 .f32) (x3 : Vec F S128x1 .i32) (x4 : Vec F S1x128 .i32) (x5 : Vec F S1x1 .f32) :
    sout1_A_0 c i arg3 harg3 arg4 harg4 arg5 harg5 arg6 harg6 arg7 harg7 arg8 harg8 arg9 harg9 arg10 harg10 hc0 hc1 x0 x1 x2 x3 x4 x5 = k1_pay2 x0 x1 x2 k1_pay1 := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S128x128) hz, View.readCov_unit_zero (S := S128x128) _ hz]
  simp only [View.readAt_eq_ld, harg3.read_unread, harg4.read_unread, harg5.read_unread,
    View.ld_unit_zero (S := S128x128) hz, View.ld_unit_zero (S := S1x128) hz, shapeCast_self]

/-- The last point of a pass: the accumulator leaves as at an inner point (the loss block's store does not touch it). -/
theorem scratch_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) :
    sout1_C_0 c i arg3 harg3 arg4 harg4 arg5 harg5 arg6 harg6 arg7 harg7 arg8 harg8 arg9 harg9 arg10 harg10 hc0 hc1 x0 x1 x2 x3 x4 x5 xs0 = k1_pay2 x0 x1 x2 xs0 := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero hz]
  simp only [View.readAt_eq_ld, harg3.read_unread, harg4.read_unread, harg5.read_unread, harg10.read_unread,
    View.ld_unit_zero (S := S128x128) hz, View.ld_unit_zero (S := S1x128) hz, shapeCast_self]

/-- The last point of a pass: the output block is the loss payload of the accumulator AFTER the point's update (read
    back from the update's store), the bias block, the labels' column block and the labels' row block. -/
theorem output_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x1 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 : Vec F S128x128 .f32) (x1 : Vec F S128x128 .f32) (x2 : Vec F S1x128 .f32) (x3 : Vec F S128x1 .i32) (x4 : Vec F S1x128 .i32) (x5 : Vec F S1x1 .f32) (xs0 : Vec F S128x128 .f32) :
    out1_C_6 c i arg3 harg3 arg4 harg4 arg5 harg5 arg6 harg6 arg7 harg7 arg8 harg8 arg9 harg9 arg10 harg10 hc0 hc1 x0 x1 x2 x3 x4 x5 xs0 = k1_pay3 (k1_pay2 x0 x1 x2 xs0) x5 x3 x4 := by
  unfold out1_C_6
  rw [View.read_writes_eq_canon _ _ _ (cover1_C_6 c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero hz]
  simp only [View.readCov_unit_zero (S := S128x128) _ hz, View.readAt_eq_ld, harg3.read_unread, harg4.read_unread,
    harg5.read_unread, harg6.read_unread, harg7.read_unread, harg8.read_unread, harg10.read_unread,
    View.ld_unit_zero (S := S128x128) hz, View.ld_unit_zero (S := S1x128) hz, View.ld_unit_zero (S := S128x1) hz,
    View.ld_unit_zero (S := S1x1) hz, shapeCast_self]

/-! ## The accumulator and the output block, point by point -/

/-- Past the first point of a pass the accumulator is the update of the point's blocks applied to what the point
    before left. -/
theorem acc1_step (c : Dev nD) (t : Fin cfg1.N) (h0 : ¬t.val % 4 = 0) :
    acc1 V c t.val t.isLt = k1_pay2 (iblk1 V c 0 t) (iblk1 V c 1 t) (iblk1 V c 2 t)
      (acc1 V c (t.val - 1) (Nat.lt_of_le_of_lt (Nat.sub_le _ _) t.isLt)) := by
  obtain ⟨n, hn⟩ := t
  cases n with
  | zero => exact absurd (Nat.zero_mod _) h0
  | succ n =>
    dsimp only at h0 ⊢
    rw [acc1, if_neg h0]
    rfl

/-- What the accumulator holds after grid point `n` (the second component of the point-by-point contents) is the
    running value `acc1`: by induction on the point, the three cases by the point's residue modulo 4. -/
theorem outsAt1_scratch (c : Dev nD) : ∀ (n : ℕ) (h : n < cfg1.N), (outsAt1 V c n h).2 = acc1 V c n h
  | 0, h => by
    rw [outsAt1_A V c ⟨0, h⟩ (Nat.zero_mod _) (by dsimp only; omega)]
    dsimp only
    refine (scratch_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) scM1_0 (Memref.isWhole_whole _) ((hcond1_0 ⟨0, h⟩).mpr (Nat.zero_mod _)) (fun h' => (fun h' => by (try dsimp only at h'); omega) ((hcond1_1 ⟨0, h⟩).mp h')) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩)).trans ?_
    rw [acc1]
  | n + 1, h => by
    have ih := outsAt1_scratch c n (Nat.lt_of_succ_lt h)
    by_cases h0 : (n + 1) % 4 = 0
    · have h1 : ¬(n + 1) % 4 = 3 := by omega
      rw [outsAt1_A V c ⟨n + 1, h⟩ h0 h1]
      dsimp only
      refine (scratch_A c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) scM1_0 (Memref.isWhole_whole _) ((hcond1_0 ⟨n + 1, h⟩).mpr h0) (fun h' => h1 ((hcond1_1 ⟨n + 1, h⟩).mp h')) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)).trans ?_
      rw [acc1, if_pos h0]
    · by_cases h1 : (n + 1) % 4 = 3
      · rw [outsAt1_C V c ⟨n + 1, h⟩ h0 h1]
        dsimp only
        refine (scratch_C c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) scM1_0 (Memref.isWhole_whole _) (fun h' => h0 ((hcond1_0 ⟨n + 1, h⟩).mp h')) ((hcond1_1 ⟨n + 1, h⟩).mpr h1) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (outsAt1 V c (n + 1 - 1) (Nat.lt_of_le_of_lt (Nat.sub_le _ _) h)).2).trans ?_
        rw [acc1, if_neg h0]
        exact congrArg (k1_pay2 (iblk1 V c 0 ⟨n + 1, h⟩) (iblk1 V c 1 ⟨n + 1, h⟩) (iblk1 V c 2 ⟨n + 1, h⟩)) ih
      · rw [outsAt1_B V c ⟨n + 1, h⟩ h0 h1]
        dsimp only
        refine (scratch_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) scM1_0 (Memref.isWhole_whole _) (fun h' => h0 ((hcond1_0 ⟨n + 1, h⟩).mp h')) (fun h' => h1 ((hcond1_1 ⟨n + 1, h⟩).mp h')) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (outsAt1 V c (n + 1 - 1) (Nat.lt_of_le_of_lt (Nat.sub_le _ _) h)).2).trans ?_
        rw [acc1, if_neg h0]
        exact congrArg (k1_pay2 (iblk1 V c 0 ⟨n + 1, h⟩) (iblk1 V c 1 ⟨n + 1, h⟩) (iblk1 V c 2 ⟨n + 1, h⟩)) ih

/-- At the last point of a pass the output's staging buffer holds the loss block of the accumulator there. -/
theorem outsAt1_out (c : Dev nD) (t : Fin cfg1.N) (h3 : t.val % 4 = 3) : (outsAt1 V c t.val t.isLt).1 = lossBlock V c t := by
  have h0 : ¬t.val % 4 = 0 := by omega
  rw [outsAt1_C V c t h0 h3]
  dsimp only
  refine (output_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h' => h0 ((hcond1_0 t).mp h')) ((hcond1_1 t).mpr h3) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).trans ?_
  rw [outsAt1_scratch V c (t.val - 1) (Nat.lt_of_le_of_lt (Nat.sub_le _ _) t.isLt), ← acc1_step V c t h0]
  rfl

end Cert.KernelIdeal.Hand

end
-- ==== Proof.IdealValue1.lean ====
/-
  The pairwise kernel's region, from its blocks to its result array. The grid (2, 2, 4) is walked row-major: the
  point t has the coordinates (t / 8, (t / 4) % 2, t % 4) = (row block bi, column block bj, hidden block h). Each of
  the six input windows' blocks at a point is a rectangle of its array at block index × block size: an entry of the
  block is the array's entry at that offset (blk1_0 … blk1_5). The output window's block at t is the block (bi, bj) of
  the [256,256] array, written back exactly at the points that close a pass over the hidden axis (t % 4 = 3), from the
  loss block of that point; the four such points' blocks tile the array, so after the region the array holds the loss
  matrix lossOf entry by entry (final1_6).
-/
import proofs.«109424_j51367808860812_1_alg».proof.Proof.IdealAccum
import Idealize.ShloMosaic.Lib.Pipeline.Value

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (V : (c : Dev nD) → (b : Ref sig .tc) → Buf (Elt F) ((c : Thread nD τ).loc b))

/-! ## The grid's points and the printed index maps -/

/-- The grid has 16 points. -/
theorem pt_lt (t : Fin cfg1.N) : t.val < 16 :=
  lt_of_lt_of_eq t.isLt (show cfg1.N = 16 from N_1)

/-- Window 0 (the row operand Bm) moves with the row block and the hidden block. -/
theorem idx1_0 : ∀ t : Fin cfg1.N, win1_0.index t (0 : Fin 2) = t.val / 8 ∧ win1_0.index t (1 : Fin 2) = t.val % 4 :=
  (by decide +kernel : ∀ t : Fin grid1.N, _)
/-- Window 1 (the column operand A) moves with the column block and the hidden block. -/
theorem idx1_1 : ∀ t : Fin cfg1.N, win1_1.index t (0 : Fin 2) = (t.val / 4) % 2 ∧ win1_1.index t (1 : Fin 2) = t.val % 4 :=
  (by decide +kernel : ∀ t : Fin grid1.N, _)
/-- Window 2 (the second layer's weight row) moves with the hidden block. -/
theorem idx1_2 : ∀ t : Fin cfg1.N, win1_2.index t (0 : Fin 2) = 0 ∧ win1_2.index t (1 : Fin 2) = t.val % 4 :=
  (by decide +kernel : ∀ t : Fin grid1.N, _)
/-- Window 3 (the labels as a column) moves with the row block. -/
theorem idx1_3 : ∀ t : Fin cfg1.N, win1_3.index t (0 : Fin 2) = t.val / 8 ∧ win1_3.index t (1 : Fin 2) = 0 :=
  (by decide +kernel : ∀ t : Fin grid1.N, _)
/-- Window 4 (the labels as a row) moves with the column block. -/
theorem idx1_4 : ∀ t : Fin cfg1.N, win1_4.index t (0 : Fin 2) = 0 ∧ win1_4.index t (1 : Fin 2) = (t.val / 4) % 2 :=
  (by decide +kernel : ∀ t : Fin grid1.N, _)
/-- Window 5 (the second layer's bias) stays. -/
theorem idx1_5 : ∀ t : Fin cfg1.N, win1_5.index t (0 : Fin 2) = 0 ∧ win1_5.index t (1 : Fin 2) = 0 :=
  (by decide +kernel : ∀ t : Fin grid1.N, _)
/-- Window 6 (the loss) moves with the row block and the column block. -/
theorem idx1_6 : ∀ t : Fin cfg1.N, win1_6.index t (0 : Fin 2) = t.val / 8 ∧ win1_6.index t (1 : Fin 2) = (t.val / 4) % 2 :=
  (by decide +kernel : ∀ t : Fin grid1.N, _)

/-! ## The input windows' blocks, read at an index -/

/-- The block of Bm at the point t: rows 128 bi …, columns 128 h … of the array. -/
theorem blk1_0 (c : Dev nD) (t : Fin cfg1.N) (r k : Fin 128) :
    (iblk1 V c 0 t : Vec F S128x128 .f32) (ix2 r k)
      = (V c main_v8_1 : S256x512.Idx → F .f32)
          (ix2 ⟨128 * (t.val / 8) + r.val, by have := pt_lt t; have := r.isLt; omega⟩
            ⟨128 * (t.val % 4) + k.val, by have := pt_lt t; have := k.isLt; omega⟩) := by
  obtain ⟨e0, e1⟩ := idx1_0 t
  unfold iblk1
  rw [View.read_apply]
  show V c main_v8_1 (((cfg1.win 0).blk t).view.emb (ix2 r k)) = V c main_v8_1 _
  congr 1
  funext a
  apply Fin.ext
  match a with
  | ⟨0, _⟩ => show win1_0.index t (0 : Fin 2) * 128 + 1 * r.val = 128 * (t.val / 8) + r.val; omega
  | ⟨1, _⟩ => show win1_0.index t (1 : Fin 2) * 128 + 1 * k.val = 128 * (t.val % 4) + k.val; omega

/-- The block of A at the point t: rows 128 bj …, columns 128 h … of the array. -/
theorem blk1_1 (c : Dev nD) (t : Fin cfg1.N) (r k : Fin 128) :
    (iblk1 V c 1 t : Vec F S128x128 .f32) (ix2 r k)
      = (V c main_v8_0 : S256x512.Idx → F .f32)
          (ix2 ⟨128 * ((t.val / 4) % 2) + r.val, by have := r.isLt; omega⟩
            ⟨128 * (t.val % 4) + k.val, by have := k.isLt; omega⟩) := by
  obtain ⟨e0, e1⟩ := idx1_1 t
  unfold iblk1
  rw [View.read_apply]
  show V c main_v8_0 (((cfg1.win 1).blk t).view.emb (ix2 r k)) = V c main_v8_0 _
  congr 1
  funext a
  apply Fin.ext
  match a with
  | ⟨0, _⟩ => show win1_1.index t (0 : Fin 2) * 128 + 1 * r.val = 128 * ((t.val / 4) % 2) + r.val; omega
  | ⟨1, _⟩ => show win1_1.index t (1 : Fin 2) * 128 + 1 * k.val = 128 * (t.val % 4) + k.val; omega

/-- The block of the second layer's weight row at the point t: columns 128 h … of the row. -/
theorem blk1_2 (c : Dev nD) (t : Fin cfg1.N) (k : Fin 128) :
    (iblk1 V c 2 t : Vec F S1x128 .f32) (ix2 (0 : Fin 1) k)
      = (V c main_v4 : S1x512.Idx → F .f32)
          (ix2 (0 : Fin 1) ⟨128 * (t.val % 4) + k.val, by have := k.isLt; omega⟩) := by
  obtain ⟨e0, e1⟩ := idx1_2 t
  unfold iblk1
  rw [View.read_apply]
  show V c main_v4 (((cfg1.win 2).blk t).view.emb (ix2 (0 : Fin 1) k)) = V c main_v4 _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 128 + 1 * k.val = 128 * (t.val % 4) + k.val; omega

/-- The block of the labels' column at the point t: rows 128 bi … of the column. -/
theorem blk1_3 (c : Dev nD) (t : Fin cfg1.N) (r : Fin 128) :
    (iblk1 V c 3 t : Vec F S128x1 .i32) (ix2 r (0 : Fin 1))
      = (V c main_v6 : S256x1.Idx → Elt F .i32)
          (ix2 ⟨128 * (t.val / 8) + r.val, by have := pt_lt t; have := r.isLt; omega⟩ (0 : Fin 1)) := by
  obtain ⟨e0, e1⟩ := idx1_3 t
  unfold iblk1
  rw [View.read_apply]
  show V c main_v6 (((cfg1.win 3).blk t).view.emb (ix2 r (0 : Fin 1))) = V c main_v6 _
  congr 1
  funext a
  apply Fin.ext
  match a with
  | ⟨0, _⟩ => show win1_3.index t (0 : Fin 2) * 128 + 1 * r.val = 128 * (t.val / 8) + r.val; omega
  | ⟨1, _⟩ => show win1_3.index t (1 : Fin 2) * 1 + 1 * (0 : Fin 1).val = (0 : Fin 1).val; rw [e1]; rfl

/-- The block of the labels' row at the point t: columns 128 bj … of the row. -/
theorem blk1_4 (c : Dev nD) (t : Fin cfg1.N) (k : Fin 128) :
    (iblk1 V c 4 t : Vec F S1x128 .i32) (ix2 (0 : Fin 1) k)
      = (V c main_v7 : S1x256.Idx → Elt F .i32)
          (ix2 (0 : Fin 1) ⟨128 * ((t.val / 4) % 2) + k.val, by have := k.isLt; omega⟩) := by
  obtain ⟨e0, e1⟩ := idx1_4 t
  unfold iblk1
  rw [View.read_apply]
  show V c main_v7 (((cfg1.win 4).blk t).view.emb (ix2 (0 : Fin 1) k)) = V c main_v7 _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * k.val = 128 * ((t.val / 4) % 2) + k.val; omega

/-- The block of the second layer's bias at every point: the one entry. -/
theorem blk1_5 (c : Dev nD) (t : Fin cfg1.N) :
    (iblk1 V c 5 t : Vec F S1x1 .f32) (ix2 (0 : Fin 1) (0 : Fin 1))
      = (V c main_v5 : S1x1.Idx → F .f32) (ix2 (0 : Fin 1) (0 : Fin 1)) := by
  obtain ⟨e0, e1⟩ := idx1_5 t
  unfold iblk1
  rw [View.read_apply]
  show V c main_v5 (((cfg1.win 5).blk t).view.emb (ix2 (0 : Fin 1) (0 : Fin 1))) = V c main_v5 _
  congr 1
  funext a
  apply Fin.ext
  match a with
  | ⟨0, _⟩ => show win1_5.index t (0 : Fin 2) * 1 + 1 * (0 : Fin 1).val = (0 : Fin 1).val; rw [e0]; rfl
  | ⟨1, _⟩ => show win1_5.index t (1 : Fin 2) * 1 + 1 * (0 : Fin 1).val = (0 : Fin 1).val; rw [e1]; rfl

/-! ## The output window: what a closing point writes back, the blocks' cover, the result array -/

/-- An entry of the loss matrix that lies in the block (bi, bj) of the point t closing a pass, at the place y inside
    the block, is the entry y of that point's loss block. -/
theorem lossOf_at (c : Dev nD) (t : Fin cfg1.N) (h3 : t.val % 4 = 3) (I : S256x256.Idx) (y : S128x128.Idx)
    (h0 : (I 0).val = 128 * (t.val / 8) + (y 0).val) (h1 : (I 1).val = 128 * ((t.val / 4) % 2) + (y 1).val) :
    lossOf V c I = lossBlock V c t y := by
  have ht := pt_lt t
  have hy0 : (y 0).val < 128 := (y 0).isLt
  have hy1 : (y 1).val < 128 := (y 1).isLt
  have hI0 : (I 0).val < 256 := (I 0).isLt
  have hI1 : (I 1).val < 256 := (I 1).isLt
  have hp : flushPt ⟨(I 0).val / 128, by omega⟩ ⟨(I 1).val / 128, by omega⟩ = t :=
    Fin.ext (by show 8 * ((I 0).val / 128) + 4 * ((I 1).val / 128) + 3 = t.val; omega)
  have hy : (ix2 (⟨(I 0).val % 128, Nat.mod_lt _ (by decide)⟩ : Fin 128) (⟨(I 1).val % 128, Nat.mod_lt _ (by decide)⟩ : Fin 128) : S128x128.Idx) = y := by
    funext a
    apply Fin.ext
    match a with
    | ⟨0, _⟩ => show (I 0).val % 128 = (y 0).val; omega
    | ⟨1, _⟩ => show (I 1).val % 128 = (y 1).val; omega
  show lossBlock V c (flushPt ⟨(I 0).val / 128, _⟩ ⟨(I 1).val / 128, _⟩)
      (ix2 (⟨(I 0).val % 128, _⟩ : Fin 128) (⟨(I 1).val % 128, _⟩ : Fin 128)) = _
  rw [hp, hy]

/-- WHAT A CLOSING POINT WRITES BACK is its block of the loss matrix. -/
theorem flushed1_6_eq (c : Dev nD) (t : Fin cfg1.N) (hf : (cfg1.win 6).flush t = true) :
    (dat1 V c).flushed 6 t = ((cfg1.win 6).blk t).view.read (Elt F) (lossOf V c) := by
  have h3 : t.val % 4 = 3 := (flush1_6 t).mp hf
  obtain ⟨e0, e1⟩ := idx1_6 t
  show (cfg1.win 6).cut (grid1.coords t) ((dat1 V c).after 6 t) = _
  rw [after1_6, outsAt1_out V c t h3]
  funext y
  rw [View.read_apply]
  show lossBlock V c t (win1_6.xinj (grid1.coords t) y) = lossOf V c (((cfg1.win 6).blk t).view.emb y)
  refine (lossOf_at V c t h3 _ _ ?_ ?_).symm
  · show win1_6.index t (0 : Fin 2) * 128 + 1 * (y 0).val = 128 * (t.val / 8) + (y 0).val; omega
  · show win1_6.index t (1 : Fin 2) * 128 + 1 * (y 1).val = 128 * ((t.val / 4) % 2) + (y 1).val; omega

/-- An index of the array is in point t's block iff each coordinate is in the block's range on its axis. -/
theorem mem_blk1_6 (t : Fin cfg1.N) (i : S256x256.Idx) :
    i ∈ ((cfg1.win 6).blk t).view.set ↔ ∀ a : Fin 2, win1_6.index t a * S128x128.size a ≤ (i a).val ∧ (i a).val < win1_6.index t a * S128x128.size a + S128x128.size a := by
  show i ∈ ((View.whole main_v9).slice (win1_6.rect t)).set ↔ _
  rw [View.set_slice_whole, Rect.mem_set_unit]
  exact Iff.rfl

/-- THE COVER: the entry (I, J) lies in the block written back at the point that closes the pass of the pair of row
    blocks (I / 128, J / 128). -/
theorem cover1_6 (i : S256x256.Idx) :
    ∃ t : Fin cfg1.N, (cfg1.win 6).flush t = true ∧ i ∈ ((cfg1.win 6).blk t).view.set := by
  have hi0 : (i 0).val < 256 := (i 0).isLt
  have hi1 : (i 1).val < 256 := (i 1).isLt
  have ht : (flushPt ⟨(i 0).val / 128, by omega⟩ ⟨(i 1).val / 128, by omega⟩).val = 8 * ((i 0).val / 128) + 4 * ((i 1).val / 128) + 3 := rfl
  obtain ⟨e0, e1⟩ := idx1_6 (flushPt ⟨(i 0).val / 128, by omega⟩ ⟨(i 1).val / 128, by omega⟩)
  refine ⟨flushPt ⟨(i 0).val / 128, by omega⟩ ⟨(i 1).val / 128, by omega⟩, (flush1_6 _).mpr (by rw [ht]; omega), ?_⟩
  rw [mem_blk1_6]
  intro a
  match a with
  | ⟨0, _⟩ =>
    show win1_6.index _ (0 : Fin 2) * 128 ≤ (i 0).val ∧ (i 0).val < win1_6.index _ (0 : Fin 2) * 128 + 128
    rw [e0, ht]; omega
  | ⟨1, _⟩ =>
    show win1_6.index _ (1 : Fin 2) * 128 ≤ (i 1).val ∧ (i 1).val < win1_6.index _ (1 : Fin 2) * 128 + 128
    rw [e1, ht]; omega

/-- THE RESULT ARRAY after the region: the loss matrix. -/
theorem final1_6 (c : Dev nD) : (dat1 V c).arrAt 6 cfg1.N = lossOf V c :=
  (dat1 V c).arrAt_eq_of_cover 6 (lossOf V c) (fun t hf => flushed1_6_eq V c t hf) cover1_6

end Cert.KernelIdeal.Hand

end
-- ==== Proof.IdealBridge.lean ====
/-
  The kernel's result is the pairwise loss of the specification. The projection kernel leaves in its two arrays the
  two halves of the hidden pre-activation: the embeddings against the weight matrix's lower rows (read through the
  host's slice at row 512 + d), and against its upper rows plus the bias. The pairwise kernel's accumulator, over the
  four points of a pass, adds up the four 128-wide stretches of the sum over the hidden axis of relu (Bm i h + A j h)
  times the second layer's weight, from the zero word; the four stretches, in order, are the whole sum because the
  extended reals' addition is associative. The output block then applies the same clamp, logistic and cross-entropy
  as the specification, to the labels and the bias read through the host's reshapes.
-/
import proofs.«109424_j51367808860812_1_alg».proof.Proof.Spec
import proofs.«109424_j51367808860812_1_alg».proof.Proof.IdealRun
import proofs.«109424_j51367808860812_1_alg».proof.Proof.IdealValue0
import proofs.«109424_j51367808860812_1_alg».proof.Proof.PayValue
import proofs.«109424_j51367808860812_1_alg».proof.Proof.IdealLayout
import proofs.«109424_j51367808860812_1_alg».proof.Proof.IdealValue1
import Idealize.ShloMosaic.Lib.ValueIdx

noncomputable section

open scoped BigOperators

namespace Cert.KernelIdeal.Bridge

open Cert.KernelIdeal Cert.KernelIdeal.Gen Cert.KernelIdeal.Hand Cert.KernelIdeal.PayValue Cert.PairLoss
open Idealize.ShloMosaic Idealize.ShloMosaic.TcCoe Idealize.ShloMosaic.ValueIdx Idealize.SL.Sem
open Cert.KernelIdeal.Layout

variable (m : (ℓ : Loc nD τ sig) → Buf (Elt Ideal) ℓ) (c : Dev nD)

/-! ## The arguments, and what the two kernels find of them -/

abbrev emb : FVec Ideal ⟨2, ![256, 512]⟩ .f32 := m ((c : Thread nD τ).loc main_arg0)
abbrev lab : IVec ⟨1, ![256]⟩ 32 := m ((c : Thread nD τ).loc main_arg1)
abbrev W1 : FVec Ideal ⟨2, ![1024, 512]⟩ .f32 := m ((c : Thread nD τ).loc main_arg2)
abbrev b1 : FVec Ideal ⟨1, ![512]⟩ .f32 := m ((c : Thread nD τ).loc main_arg3)
abbrev W2 : FVec Ideal ⟨2, ![512, 1]⟩ .f32 := m ((c : Thread nD τ).loc main_arg4)
abbrev b2 : FVec Ideal ⟨1, ![1]⟩ .f32 := m ((c : Thread nD τ).loc main_arg5)

/-- The projection kernel's second array is the embeddings against the weight matrix's lower rows. -/
theorem Bm_eq (I : Fin 256) (H : Fin 512) :
    (V2 m c main_v8_1 : S256x512.Idx → EReal) (ix2 I H) = projB (emb m c) (W1 m c) I H := by
  rw [V2_main_v8_1, final0_5]
  refine (pay_projB _ _ I H).trans ?_
  unfold projB
  refine Finset.sum_congr rfl fun d _ => ?_
  rw [V1_main_arg0, V1_main_v1, slice_high (G := Ideal)]

/-- Its first array is the embeddings against the upper rows, plus the bias. -/
theorem A_eq (J : Fin 256) (H : Fin 512) :
    (V2 m c main_v8_0 : S256x512.Idx → EReal) (ix2 J H) = projA (emb m c) (W1 m c) (b1 m c) J H := by
  rw [V2_main_v8_0, final0_4]
  refine (pay_projA _ _ _ J H).trans ?_
  unfold projA
  rw [V1_main_v2, cast_bias (G := Ideal)]
  refine congrArg (· + _) ?_
  refine Finset.sum_congr rfl fun d _ => ?_
  rw [V1_main_arg0, V1_main_v0, slice_low (G := Ideal)]

theorem w2_eq (H : Fin 512) : (V2 m c main_v4 : S1x512.Idx → EReal) (ix2 (0 : Fin 1) H) = W2 m c (ix2 H (0 : Fin 1)) := by
  rw [V2_of_V1 m c main_v4 (by decide), V1_main_v4, cast_col (G := Ideal)]
theorem b2_eq : (V2 m c main_v5 : S1x1.Idx → EReal) (ix2 (0 : Fin 1) (0 : Fin 1)) = b2 m c (ix1 (0 : Fin 1)) := by
  rw [V2_of_V1 m c main_v5 (by decide), V1_main_v5, cast_one (G := Ideal)]
theorem li_eq (I : Fin 256) : (V2 m c main_v6 : S256x1.Idx → BitVec 32) (ix2 I (0 : Fin 1)) = lab m c (ix1 I) := by
  rw [V2_of_V1 m c main_v6 (by decide), V1_main_v6, cast_lab_col]
theorem lj_eq (J : Fin 256) : (V2 m c main_v7 : S1x256.Idx → BitVec 32) (ix2 (0 : Fin 1) J) = lab m c (ix1 J) := by
  rw [V2_of_V1 m c main_v7 (by decide), V1_main_v7, cast_lab_row]

/-! ## The pairwise kernel's blocks, by name and at an index -/

abbrev bmBlk (s : Fin cfg1.N) : Vec Ideal S128x128 .f32 := iblk1 (V2 m) c 0 s
abbrev aBlk (s : Fin cfg1.N) : Vec Ideal S128x128 .f32 := iblk1 (V2 m) c 1 s
abbrev wBlk (s : Fin cfg1.N) : Vec Ideal S1x128 .f32 := iblk1 (V2 m) c 2 s
abbrev liBlk (s : Fin cfg1.N) : Vec Ideal S128x1 .i32 := iblk1 (V2 m) c 3 s
abbrev ljBlk (s : Fin cfg1.N) : Vec Ideal S1x128 .i32 := iblk1 (V2 m) c 4 s
abbrev b2Blk (s : Fin cfg1.N) : Vec Ideal S1x1 .f32 := iblk1 (V2 m) c 5 s
abbrev accAt (n : ℕ) (h : n < cfg1.N) : Vec Ideal S128x128 .f32 := acc1 (V2 m) c n h

theorem bmBlk_apply (s : Fin cfg1.N) (r k : Fin 128) :
    bmBlk m c s (ix2 r k) = projB (emb m c) (W1 m c) ⟨128 * (s.val / 8) + r.val, by have := pt_lt s; have := r.isLt; omega⟩
      ⟨128 * (s.val % 4) + k.val, by have := k.isLt; omega⟩ :=
  (blk1_0 (V2 m) c s r k).trans (Bm_eq m c _ _)
theorem aBlk_apply (s : Fin cfg1.N) (r k : Fin 128) :
    aBlk m c s (ix2 r k) = projA (emb m c) (W1 m c) (b1 m c) ⟨128 * ((s.val / 4) % 2) + r.val, by have := r.isLt; omega⟩
      ⟨128 * (s.val % 4) + k.val, by have := k.isLt; omega⟩ :=
  (blk1_1 (V2 m) c s r k).trans (A_eq m c _ _)
theorem wBlk_apply (s : Fin cfg1.N) (k : Fin 128) :
    wBlk m c s (ix2 (0 : Fin 1) k) = W2 m c (ix2 (⟨128 * (s.val % 4) + k.val, by have := k.isLt; omega⟩ : Fin 512) (0 : Fin 1)) :=
  (blk1_2 (V2 m) c s k).trans (w2_eq m c _)
theorem liBlk_apply (s : Fin cfg1.N) (r : Fin 128) :
    liBlk m c s (ix2 r (0 : Fin 1)) = lab m c (ix1 (⟨128 * (s.val / 8) + r.val, by have := pt_lt s; have := r.isLt; omega⟩ : Fin 256)) :=
  (blk1_3 (V2 m) c s r).trans (li_eq m c _)
theorem ljBlk_apply (s : Fin cfg1.N) (k : Fin 128) :
    ljBlk m c s (ix2 (0 : Fin 1) k) = lab m c (ix1 (⟨128 * ((s.val / 4) % 2) + k.val, by have := k.isLt; omega⟩ : Fin 256)) :=
  (blk1_4 (V2 m) c s k).trans (lj_eq m c _)
theorem b2Blk_apply (s : Fin cfg1.N) : b2Blk m c s (ix2 (0 : Fin 1) (0 : Fin 1)) = b2 m c (ix1 (0 : Fin 1)) :=
  (blk1_5 (V2 m) c s).trans (b2_eq m c)

/-! ## The accumulator over a pass -/

/-- The accumulator after a point is the update of the point's blocks applied to the zero block at the first point
    of a pass and to the accumulator of the point before otherwise. -/
theorem acc1_unfold {F : FTy → Type} [FloatOps F] (V : (c : Dev nD) → (b : Ref sig .tc) → Buf (Elt F) ((c : Thread nD τ).loc b))
    (n : ℕ) (h : n < cfg1.N) :
    acc1 V c n h = k1_pay2 (iblk1 V c 0 ⟨n, h⟩) (iblk1 V c 1 ⟨n, h⟩) (iblk1 V c 2 ⟨n, h⟩)
      (if n % 4 = 0 then k1_pay1 else acc1 V c (n - 1) (lt_of_le_of_lt (Nat.sub_le _ _) h)) := by
  cases n with
  | zero => rfl
  | succ n => rfl

/-- One point's contribution to the entry (r, k) of the accumulator: the 128-wide stretch of the hidden sum that the
    point's blocks hold. -/
def stretch (s : Fin cfg1.N) (r k : Fin 128) : EReal :=
  ∑ k' : Fin 128, max (bmBlk m c s (ix2 r k') + aBlk m c s (ix2 k k')) zero * wBlk m c s (ix2 (0 : Fin 1) k')

theorem acc1_apply (n : ℕ) (h : n < cfg1.N) (r k : Fin 128) :
    accAt m c n h (ix2 r k)
      = (if n % 4 = 0 then zero else accAt m c (n - 1) (lt_of_le_of_lt (Nat.sub_le _ _) h) (ix2 r k)) + stretch m c ⟨n, h⟩ r k := by
  have hu : accAt m c n h = k1_pay2 (F := Ideal) (bmBlk m c ⟨n, h⟩) (aBlk m c ⟨n, h⟩) (wBlk m c ⟨n, h⟩)
      (if n % 4 = 0 then k1_pay1 (F := Ideal) else accAt m c (n - 1) (lt_of_le_of_lt (Nat.sub_le _ _) h)) := acc1_unfold c (V2 m) n h
  rw [hu]
  refine (pay_acc (bmBlk m c ⟨n, h⟩) (aBlk m c ⟨n, h⟩) (wBlk m c ⟨n, h⟩)
      (if n % 4 = 0 then k1_pay1 (F := Ideal) else accAt m c (n - 1) (lt_of_le_of_lt (Nat.sub_le _ _) h)) r k).trans ?_
  unfold stretch
  refine congrArg (· + _) ?_
  split_ifs
  · exact pay_zero _
  · rfl

/-- The grid point of the pair of row blocks (bi, bj) at the hidden block h. -/
def pt (bi bj : Fin 2) (h : Fin 4) : Fin cfg1.N :=
  ⟨8 * bi.val + 4 * bj.val + h.val, by have := bi.isLt; have := bj.isLt; have := h.isLt; rw [show cfg1.N = 16 from N_1]; omega⟩

/-- Row 128 b + r of a 256-row array. -/
abbrev row (b : Fin 2) (r : Fin 128) : Fin 256 := ⟨128 * b.val + r.val, by have := b.isLt; have := r.isLt; omega⟩
/-- Hidden unit 128 h + k. -/
abbrev hid (h : Fin 4) (k : Fin 128) : Fin 512 := ⟨128 * h.val + k.val, by have := h.isLt; have := k.isLt; omega⟩

theorem term_congr {I I' J J' : Fin 256} {H H' : Fin 512} (hI : I.val = I'.val) (hJ : J.val = J'.val) (hH : H.val = H'.val) :
    max (projB (emb m c) (W1 m c) I H + projA (emb m c) (W1 m c) (b1 m c) J H) zero * W2 m c (ix2 H (0 : Fin 1))
      = max (projB (emb m c) (W1 m c) I' H' + projA (emb m c) (W1 m c) (b1 m c) J' H') zero * W2 m c (ix2 H' (0 : Fin 1)) := by
  obtain rfl := Fin.ext hI; obtain rfl := Fin.ext hJ; obtain rfl := Fin.ext hH; rfl

/-- A point's stretch is the specification's hidden sum over the 128 units of its hidden block. -/
theorem stretch_eq (bi bj : Fin 2) (h : Fin 4) (r k : Fin 128) :
    stretch m c (pt bi bj h) r k
      = ∑ k' : Fin 128, PairLoss.hidden (emb m c) (W1 m c) (b1 m c) (row bi r) (row bj k) (hid h k') * W2 m c (ix2 (hid h k') (0 : Fin 1)) := by
  unfold stretch
  refine Finset.sum_congr rfl fun k' _ => ?_
  rw [bmBlk_apply, aBlk_apply, wBlk_apply]
  unfold PairLoss.hidden
  have hb := bi.isLt; have hc := bj.isLt; have hh := h.isLt
  refine term_congr m c ?_ ?_ ?_
  · show 128 * ((8 * bi.val + 4 * bj.val + h.val) / 8) + r.val = 128 * bi.val + r.val
    omega
  · show 128 * (((8 * bi.val + 4 * bj.val + h.val) / 4) % 2) + k.val = 128 * bj.val + k.val
    omega
  · show 128 * ((8 * bi.val + 4 * bj.val + h.val) % 4) + k'.val = 128 * h.val + k'.val
    omega

theorem acc1_apply_succ (n : ℕ) (h : n + 1 < cfg1.N) (hn : ¬(n + 1) % 4 = 0) (r k : Fin 128) :
    accAt m c (n + 1) h (ix2 r k) = accAt m c n (Nat.lt_of_succ_lt h) (ix2 r k) + stretch m c ⟨n + 1, h⟩ r k := by
  rw [acc1_apply m c (n + 1) h r k, if_neg hn]
  rfl

theorem acc1_apply_reset (n : ℕ) (h : n < cfg1.N) (hn : n % 4 = 0) (r k : Fin 128) :
    accAt m c n h (ix2 r k) = zero + stretch m c ⟨n, h⟩ r k := by
  rw [acc1_apply m c n h r k, if_pos hn]

/-- Over the four points of a pass the accumulator adds the four stretches, in order, to the zero word. -/
theorem acc_chain (n : ℕ) (h : n + 1 + 1 + 1 < cfg1.N) (hn : n % 4 = 0) (r k : Fin 128) :
    accAt m c (n + 1 + 1 + 1) h (ix2 r k)
      = (((zero + stretch m c ⟨n, by omega⟩ r k) + stretch m c ⟨n + 1, by omega⟩ r k) + stretch m c ⟨n + 1 + 1, by omega⟩ r k)
        + stretch m c ⟨n + 1 + 1 + 1, h⟩ r k := by
  rw [acc1_apply_succ m c (n + 1 + 1) h (by omega) r k, acc1_apply_succ m c (n + 1) (by omega) (by omega) r k,
    acc1_apply_succ m c n (by omega) (by omega) r k, acc1_apply_reset m c n (by omega) hn r k]

theorem apply_congr (f : Fin 512 → EReal) {a b : Fin 512} (h : a.val = b.val) : f a = f b := by rw [Fin.ext h]

/-- At the close of the pass of (bi, bj) the accumulator's entry (r, k) is the pair's whole hidden sum. -/
theorem acc_pass (bi bj : Fin 2) (r k : Fin 128) :
    accAt m c (flushPt bi bj).val (flushPt bi bj).isLt (ix2 r k)
      = ∑ H : Fin 512, PairLoss.hidden (emb m c) (W1 m c) (b1 m c) (row bi r) (row bj k) H * W2 m c (ix2 H (0 : Fin 1)) := by
  have hb := bi.isLt; have hc := bj.isLt
  have hN : cfg1.N = 16 := N_1
  refine (acc_chain m c (8 * bi.val + 4 * bj.val) (by omega) (by omega) r k).trans ?_
  rw [sum_four_blocks]
  have s0 : stretch m c ⟨8 * bi.val + 4 * bj.val, by omega⟩ r k = stretch m c (pt bi bj 0) r k := congrArg (stretch m c · r k) (Fin.ext rfl)
  have s1 : stretch m c ⟨8 * bi.val + 4 * bj.val + 1, by omega⟩ r k = stretch m c (pt bi bj 1) r k := congrArg (stretch m c · r k) (Fin.ext rfl)
  have s2 : stretch m c ⟨8 * bi.val + 4 * bj.val + 1 + 1, by omega⟩ r k = stretch m c (pt bi bj 2) r k := congrArg (stretch m c · r k) (Fin.ext rfl)
  have s3 : stretch m c ⟨8 * bi.val + 4 * bj.val + 1 + 1 + 1, by omega⟩ r k = stretch m c (pt bi bj 3) r k := congrArg (stretch m c · r k) (Fin.ext rfl)
  rw [s0, s1, s2, s3, stretch_eq, stretch_eq, stretch_eq, stretch_eq]
  refine congrArg₂ (· + ·) (congrArg₂ (· + ·) (congrArg₂ (· + ·) (congrArg (zero + ·) ?_) ?_) ?_) ?_
  all_goals refine Finset.sum_congr rfl fun k' _ => ?_
  all_goals refine apply_congr (fun H => PairLoss.hidden (emb m c) (W1 m c) (b1 m c) (row bi r) (row bj k) H * W2 m c (ix2 H (0 : Fin 1))) ?_
  · show 128 * 0 + k'.val = k'.val; omega
  · show 128 * 1 + k'.val = 128 + k'.val; omega
  · show 128 * 2 + k'.val = 256 + k'.val; omega
  · show 128 * 3 + k'.val = 384 + k'.val; omega

/-! ## The output block, entry by entry -/

theorem loss_entry (bi bj : Fin 2) (r k : Fin 128) :
    (lossBlock (V2 m) c (flushPt bi bj) : Vec Ideal S128x128 .f32) (ix2 r k)
      = loss (emb m c) (lab m c) (W1 m c) (b1 m c) (W2 m c) (b2 m c) (row bi r) (row bj k) := by
  have hb := bi.isLt; have hc := bj.isLt
  show k1_pay3 (F := Ideal) (accAt m c (flushPt bi bj).val (flushPt bi bj).isLt) (b2Blk m c (flushPt bi bj)) (liBlk m c (flushPt bi bj)) (ljBlk m c (flushPt bi bj)) (ix2 r k) = _
  refine (pay_loss (accAt m c (flushPt bi bj).val (flushPt bi bj).isLt) (b2Blk m c (flushPt bi bj)) (liBlk m c (flushPt bi bj)) (ljBlk m c (flushPt bi bj)) r k).trans ?_
  rw [liBlk_apply, ljBlk_apply, b2Blk_apply, acc_pass]
  unfold loss prob logit
  have e1 : ∀ p, (⟨128 * ((flushPt bi bj).val / 8) + r.val, p⟩ : Fin 256) = row bi r := fun p =>
    Fin.ext (by show 128 * ((8 * bi.val + 4 * bj.val + 3) / 8) + r.val = 128 * bi.val + r.val; omega)
  have e2 : ∀ p, (⟨128 * (((flushPt bi bj).val / 4) % 2) + k.val, p⟩ : Fin 256) = row bj k := fun p =>
    Fin.ext (by show 128 * (((8 * bi.val + 4 * bj.val + 3) / 4) % 2) + k.val = 128 * bj.val + k.val; omega)
  rw [e1, e2]

theorem split256 (I : Fin 256) : ∃ (b : Fin 2) (r : Fin 128), I = row b r :=
  ⟨⟨I.val / 128, by have := I.isLt; omega⟩, ⟨I.val % 128, Nat.mod_lt _ (by decide)⟩, Fin.ext (by show I.val = 128 * (I.val / 128) + I.val % 128; omega)⟩

/-- Every entry of the assembled loss matrix is the specification's loss of its pair. -/
theorem lossOf_apply (I J : Fin 256) :
    (lossOf (V2 m) c : S256x256.Idx → EReal) (ix2 I J) = loss (emb m c) (lab m c) (W1 m c) (b1 m c) (W2 m c) (b2 m c) I J := by
  obtain ⟨bi, r, rfl⟩ := split256 I
  obtain ⟨bj, k, rfl⟩ := split256 J
  have hb := bi.isLt; have hc := bj.isLt; have hr := r.isLt; have hk := k.isLt
  unfold lossOf
  have e1 : ∀ p, (⟨(128 * bi.val + r.val) / 128, p⟩ : Fin 2) = bi := fun p => Fin.ext (by show (128 * bi.val + r.val) / 128 = bi.val; omega)
  have e2 : ∀ p, (⟨(128 * bj.val + k.val) / 128, p⟩ : Fin 2) = bj := fun p => Fin.ext (by show (128 * bj.val + k.val) / 128 = bj.val; omega)
  have e3 : ∀ p, (⟨(128 * bi.val + r.val) % 128, p⟩ : Fin 128) = r := fun p => Fin.ext (by show (128 * bi.val + r.val) % 128 = r.val; omega)
  have e4 : ∀ p, (⟨(128 * bj.val + k.val) % 128, p⟩ : Fin 128) = k := fun p => Fin.ext (by show (128 * bj.val + k.val) % 128 = k.val; omega)
  show (lossBlock (V2 m) c (flushPt ⟨(128 * bi.val + r.val) / 128, _⟩ ⟨(128 * bj.val + k.val) / 128, _⟩) : Vec Ideal S128x128 .f32)
      (ix2 (⟨(128 * bi.val + r.val) % 128, _⟩ : Fin 128) (⟨(128 * bj.val + k.val) % 128, _⟩ : Fin 128)) = _
  rw [e1, e2, e3, e4]
  exact loss_entry m c bi bj r k

/-- The result buffer ends holding the specification's flat loss vector of the launch arguments. -/
theorem kernel_is_G :
    (W4 m c main_v10 : S65536.Idx → EReal) = G (emb m c) (lab m c) (W1 m c) (b1 m c) (W2 m c) (b2 m c) := by
  rw [W4_main_v10, final1_6]
  funext k
  rw [cast_flat (G := Ideal)]
  exact lossOf_apply m c _ _

end Cert.KernelIdeal.Bridge

end
-- ==== Proof.RefValue.lean ====
/-
  The reference program's result is the pairwise loss G of the argument arrays, index by index over the extended reals.

  The reference builds, for every pair (i, j), the 1024-wide row [emb j | emb i] (two broadcasts and a join on the last
  axis), multiplies it into the whole 1024 x 512 weight matrix, adds the bias, applies the relu, multiplies into the
  second layer's 512 x 1 matrix, adds its bias, takes the logistic spelt as 1 / (1 + exp (-x)), clamps, and forms the
  cross-entropy against the label comparison. Read at one index each step is a step of the specification; the only
  mathematics is that the 1024-term sum over the joined row is the sum over the lower 512 rows (against emb j) plus
  the sum over the upper 512 rows (against emb i), and re-association of three summands in the additive commutative
  monoid of extended reals; no distributivity, so no finiteness, is used. The words of one and of zero are read as the
  numbers 1 and 0 where the specification spells the logistic and the negations differently from the program.
-/
import proofs.«109424_j51367808860812_1_alg».proof.Proof.Spec
import proofs.«109424_j51367808860812_1_alg».proof.Proof.Gen.ReferenceIdeal.Run
import proofs.«109424_j51367808860812_1_alg».proof.Proof.Gen.ReferenceIdeal.Read
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.PairLoss
open Idealize.ShloMosaic Idealize.ShloMosaic.ValueIdx Idealize.ShloMosaic.TcCoe Idealize.SL.Sem

/-! ## Sums and the two small identities of extended-real arithmetic -/

/-- A sum over 1024 terms is the sum over the lower 512 plus the sum over the upper 512. -/
theorem sum_halves (f : Fin 1024 → EReal) :
    ∑ k : Fin 1024, f k = (∑ d : Fin 512, f (lowRow d)) + ∑ d : Fin 512, f (highRow d) :=
  Fin.sum_univ_add (a := 512) (b := 512) f

/-- (A + B) + c = B + (A + c). -/
theorem swap_assoc (A B c : EReal) : (A + B) + c = B + (A + c) := by
  rw [add_comm A B, add_assoc]

/-- The unsigned reading of the one-bit equality test of two words is the indicator of their equality. -/
theorem bit_of_eq (a b : BitVec 32) :
    FloatOps.uitofp (F := Ideal) .f32 (IntOp.cmpi .eq a b) = tgt a b := by
  unfold tgt
  by_cases h : a = b
  · subst h
    rw [if_pos rfl]
    show ((((BitVec.ofBool (a == a)).toNat : ℕ) : ℝ) : EReal) = _
    simp
  · rw [if_neg h]
    show ((((BitVec.ofBool (a == b)).toNat : ℕ) : ℝ) : EReal) = _
    simp [h]

section
variable (x0 : (⟨S256x512, .f32⟩ : BufTy).Contents (Elt Ideal)) (x1 : (⟨S256, .i32⟩ : BufTy).Contents (Elt Ideal))
  (x2 : (⟨S1024x512, .f32⟩ : BufTy).Contents (Elt Ideal)) (x3 : (⟨S512, .f32⟩ : BufTy).Contents (Elt Ideal))
  (x4 : (⟨S512x1, .f32⟩ : BufTy).Contents (Elt Ideal)) (x5 : (⟨S1, .f32⟩ : BufTy).Contents (Elt Ideal))

/-! ## The joined row at an index -/

/-- Below 512 the joined row of the pair (i, j) reads embedding j. -/
theorem joined_low (i j : Fin 256) (h d : Fin 512) :
    val_main_v4 (F := Ideal) x0 (lidx_main_v5 (ix3 i j h) (lowRow d)) = x0 (ix2 j d) := by
  unfold val_main_v4
  refine (concatenate_pair_apply_left (t := S256x256x1024) (s₁ := S256x256x512) (s₂ := S256x256x512) 2
    (val_main_v1 (F := Ideal) x0) (val_main_v3 (F := Ideal) x0)
    concatenates_S256x256x512_S256x256x512_S256x256x1024_d2 (lidx_main_v5 (ix3 i j h) (lowRow d)) rfl (ix3 i j d)
    (fun b => match b with | ⟨0, _⟩ => rfl | ⟨1, _⟩ => rfl | ⟨2, _⟩ => rfl)).trans ?_
  rw [val_main_v1_apply, val_main_v0_apply]
  exact congrArg x0 (funext fun a => match a with | ⟨0, _⟩ => rfl | ⟨1, _⟩ => rfl)

/-- From 512 on it reads embedding i, 512 further back. -/
theorem joined_high (i j : Fin 256) (h d : Fin 512) :
    val_main_v4 (F := Ideal) x0 (lidx_main_v5 (ix3 i j h) (highRow d)) = x0 (ix2 i d) := by
  unfold val_main_v4
  refine (concatenate_pair_apply_right (t := S256x256x1024) (s₁ := S256x256x512) (s₂ := S256x256x512) 2
    (val_main_v1 (F := Ideal) x0) (val_main_v3 (F := Ideal) x0)
    concatenates_S256x256x512_S256x256x512_S256x256x1024_d2 (lidx_main_v5 (ix3 i j h) (highRow d)) rfl rfl (ix3 i j d)
    (fun b => match b with
      | ⟨0, _⟩ => fun _ => rfl
      | ⟨1, _⟩ => fun _ => rfl
      | ⟨2, _⟩ => fun hne => absurd rfl hne)
    (Nat.add_comm d.val 512)).trans ?_
  rw [val_main_v3_apply, val_main_v2_apply]
  exact congrArg x0 (funext fun a => match a with | ⟨0, _⟩ => rfl | ⟨1, _⟩ => rfl)

/-! ## The hidden layer -/

/-- The weight the first contraction reads at (k, h). -/
theorem weight1_idx (i j : Fin 256) (h : Fin 512) (k : Fin 1024) : ridx_main_v5 (ix3 i j h) k = ix2 k h :=
  funext fun a => match a with | ⟨0, _⟩ => rfl | ⟨1, _⟩ => rfl

/-- The bias the hidden pre-activation reads at h. -/
theorem bias1_idx (i j : Fin 256) (h : Fin 512) : idx_main_v6 (idx_main_v7 (ix3 i j h)) = ix1 h :=
  funext fun a => match a with | ⟨0, _⟩ => rfl

/-- The hidden pre-activation of the pair (i, j) at unit h: the first member's part plus the second member's. -/
theorem preact_eq (i j : Fin 256) (h : Fin 512) :
    val_main_v8 (F := Ideal) x0 x2 x3 (ix3 i j h) = projB x0 x2 i h + projA x0 x2 x3 j h := by
  rw [val_main_v8_apply, val_main_v5_apply, val_main_v7_apply, val_main_v6_apply, bias1_idx, sum_halves]
  have eL : ∀ d : Fin 512, val_main_v4 (F := Ideal) x0 (lidx_main_v5 (ix3 i j h) (lowRow d)) * x2 (ridx_main_v5 (ix3 i j h) (lowRow d))
      = x0 (ix2 j d) * x2 (ix2 (lowRow d) h) := fun d => by rw [joined_low, weight1_idx]
  have eH : ∀ d : Fin 512, val_main_v4 (F := Ideal) x0 (lidx_main_v5 (ix3 i j h) (highRow d)) * x2 (ridx_main_v5 (ix3 i j h) (highRow d))
      = x0 (ix2 i d) * x2 (ix2 (highRow d) h) := fun d => by rw [joined_high, weight1_idx]
  rw [Finset.sum_congr rfl fun d _ => eL d, Finset.sum_congr rfl fun d _ => eH d]
  exact swap_assoc _ _ _

/-- After the relu. -/
theorem hidden_eq (i j : Fin 256) (h : Fin 512) :
    val_main_v9 (F := Ideal) x0 x2 x3 (ix3 i j h) = hidden x0 x2 x3 i j h := by
  rw [val_main_v9_apply, val_main_call0_v0_apply, val_main_call0_cst_apply, preact_eq]
  rfl

/-! ## The logit -/

theorem hidden_idx (i j : Fin 256) (k : Fin 512) : lidx_main_v10 (ix3 i j (0 : Fin 1)) k = ix3 i j k :=
  funext fun a => match a with | ⟨0, _⟩ => rfl | ⟨1, _⟩ => rfl | ⟨2, _⟩ => rfl

theorem weight2_idx (i j : Fin 256) (k : Fin 512) : ridx_main_v10 (ix3 i j (0 : Fin 1)) k = ix2 k (0 : Fin 1) :=
  funext fun a => match a with | ⟨0, _⟩ => rfl | ⟨1, _⟩ => rfl

theorem bias2_idx (i j : Fin 256) : idx_main_v11 (idx_main_v12 (ix3 i j (0 : Fin 1))) = ix1 (0 : Fin 1) :=
  funext fun a => match a with | ⟨0, _⟩ => rfl

/-- The pair's logit. -/
theorem logit_eq (i j : Fin 256) :
    val_main_v13 (F := Ideal) x0 x2 x3 x4 x5 (ix3 i j (0 : Fin 1)) = logit x0 x2 x3 x4 x5 i j := by
  rw [val_main_v13_apply, val_main_v10_apply, val_main_v12_apply, val_main_v11_apply, bias2_idx]
  have e : ∀ k : Fin 512, val_main_v9 (F := Ideal) x0 x2 x3 (lidx_main_v10 (ix3 i j (0 : Fin 1)) k) * x4 (ridx_main_v10 (ix3 i j (0 : Fin 1)) k)
      = hidden x0 x2 x3 i j k * x4 (ix2 k (0 : Fin 1)) := fun k => by rw [hidden_idx, weight2_idx, hidden_eq]
  rw [Finset.sum_congr rfl fun k _ => e k]
  rfl

/-! ## The clamped probability -/

theorem unsqueeze_idx (i j : Fin 256) : idx_main_v20 (ix2 i j) = ix3 i j (0 : Fin 1) :=
  funext fun a => match a with
    | ⟨0, _⟩ => Fin.ext (by show (i.val * 256 + j.val) / 256 = i.val; have := j.isLt; omega)
    | ⟨1, _⟩ => Fin.ext (by show (i.val * 256 + j.val) / 1 % 256 = j.val; have := j.isLt; omega)
    | ⟨2, _⟩ => rfl

/-- The pair's clamped probability: the program's 1 / (1 + exp (-x)) is the logistic. -/
theorem prob_eq (i j : Fin 256) :
    val_main_v21 (F := Ideal) x0 x2 x3 x4 x5 (ix2 i j) = prob x0 x2 x3 x4 x5 i j := by
  rw [val_main_v21_apply, val_main_call1_v4_apply, val_main_call1_v3_apply, val_main_cst_2_apply,
    val_main_call1_v2_apply, val_main_call1_v1_apply, val_main_call1_v0_apply, val_main_cst_1_apply,
    val_main_v20_apply, unsqueeze_idx, val_main_v19_apply, val_main_v18_apply, val_main_cst_0_apply,
    val_main_v17_apply, val_main_v16_apply, val_main_cst_apply, val_main_v15_apply, val_main_v14_apply, logit_eq]
  show min hi (max lo (Ideal.div (Ideal.ofBits .f32 0x3F800000#32)
    (Ideal.ofBits .f32 0x3F800000#32 + Ideal.exp (-(logit x0 x2 x3 x4 x5 i j))))) = _
  rw [Ideal.ofBits_one_f32]
  rfl

/-! ## The target -/

theorem label_row_idx (i j : Fin 256) : idx_main_v22 (idx_main_v24 (ix2 i j)) = ix1 i :=
  funext fun a => match a with | ⟨0, _⟩ => rfl

theorem label_col_idx (i j : Fin 256) : idx_main_v23 (idx_main_v25 (ix2 i j)) = ix1 j :=
  funext fun a => match a with | ⟨0, _⟩ => rfl

/-- The converted label comparison is the indicator that the two labels are equal. -/
theorem tgt_eq (i j : Fin 256) :
    val_main_v27 (F := Ideal) x1 (ix2 i j) = tgt (x1 (ix1 i)) (x1 (ix1 j)) := by
  rw [val_main_v27_apply, val_main_v26_apply, val_main_v24_apply, val_main_v22_apply, label_row_idx,
    val_main_v25_apply, val_main_v23_apply, label_col_idx]
  exact bit_of_eq _ _

/-! ## The loss -/

/-- The pair's loss: negations against the specification's differences from the zero word. -/
theorem loss_eq (i j : Fin 256) :
    val_main_v36 (F := Ideal) x0 x1 x2 x3 x4 x5 (ix2 i j) = loss x0 x1 x2 x3 x4 x5 i j := by
  rw [val_main_v36_apply, val_main_v35_apply, val_main_v29_apply, val_main_v28_apply, val_main_v34_apply,
    val_main_v31_apply, val_main_v30_apply, val_main_cst_3_apply, val_main_v33_apply, val_main_v32_apply,
    prob_eq, tgt_eq]
  show -(tgt (x1 (ix1 i)) (x1 (ix1 j)) * Ideal.log (prob x0 x2 x3 x4 x5 i j)
      + (one - tgt (x1 (ix1 i)) (x1 (ix1 j))) * Ideal.log1p (-(prob x0 x2 x3 x4 x5 i j)))
    = Ideal.ofBits .f32 0x00000000#32 - (tgt (x1 (ix1 i)) (x1 (ix1 j)) * Ideal.log (prob x0 x2 x3 x4 x5 i j)
      + (one - tgt (x1 (ix1 i)) (x1 (ix1 j))) * Ideal.log1p (Ideal.ofBits .f32 0x00000000#32 - prob x0 x2 x3 x4 x5 i j))
  rw [Ideal.ofBits_zero_f32, zero_sub, zero_sub]

/-- The flat result at entry k is the loss of the pair (k / 256, k % 256). -/
theorem flat_eq : val_main_v37 (F := Ideal) x0 x1 x2 x3 x4 x5 = G x0 x1 x2 x3 x4 x5 := by
  funext k
  rw [val_main_v37_apply]
  have e : idx_main_v37 k = ix2 (⟨(k 0).val / 256, by have : (k 0).val < 65536 := (k 0).isLt; omega⟩ : Fin 256)
      (⟨(k 0).val % 256, Nat.mod_lt _ (by decide)⟩ : Fin 256) :=
    funext fun a => match a with | ⟨0, _⟩ => rfl | ⟨1, _⟩ => rfl
  rw [e, loss_eq]
  rfl

end

/-- Every execution of the reference leaves the pairwise loss of its arguments in its result. -/
theorem ref_is_G (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v37 (F := Ideal) m c
      = Cert.PairLoss.G (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) :=
  (val_main_v37_eq (F := Ideal) m c).trans (flat_eq _ _ _ _ _ _)

end Cert.ReferenceIdeal.RefValue

end
-- ==== Proof.lean ====
/-
  The five claims. The word-level kernel and its idealization each run to the end with their arguments unchanged: the
  hand frame of the two-kernel program, written once for any float instance and read at each. The reference's frame is
  its generated run with the result dropped. The ideal pass rewrote nothing, so the idealization is the program's own
  text. And at the ideal instance both programs end with the same flat loss vector: the kernel's result buffer holds the
  specification's function of the launch arguments (the bridge from the two kernels' blocks), the reference's result is
  that function too (its operations read one at a time), and the two memories agree on the arguments.
-/
import proofs.«109424_j51367808860812_1_alg».proof.Defs
import proofs.«109424_j51367808860812_1_alg».proof.Proof.Gen.Kernel
import proofs.«109424_j51367808860812_1_alg».proof.Proof.Gen.KernelIdeal
import proofs.«109424_j51367808860812_1_alg».proof.Proof.Gen.ReferenceIdeal
import proofs.«109424_j51367808860812_1_alg».proof.Proof.Gen.Pre_finite_inputs
import proofs.«109424_j51367808860812_1_alg».proof.Proof.BitsRun
import proofs.«109424_j51367808860812_1_alg».proof.Proof.IdealBridge
import proofs.«109424_j51367808860812_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame_all m ρ

theorem frame_ki : Cert.frame_KernelIdeal (hKernelIdeal := Cert.KernelIdeal.Gen.facts) (hPre_finite_inputs := Cert.Pre_finite_inputs.Gen.facts) :=
  fun m ρ _ => Cert.KernelIdeal.Hand.frame_all m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance the kernel's result buffer and the reference's both end at the specification's loss vector
    of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.PairLoss.G (Cert.KernelIdeal.Bridge.emb m c) (Cert.KernelIdeal.Bridge.lab m c) (Cert.KernelIdeal.Bridge.W1 m c)
    (Cert.KernelIdeal.Bridge.b1 m c) (Cert.KernelIdeal.Bridge.W2 m c) (Cert.KernelIdeal.Bridge.b2 m c), ?_, ?_⟩
  · refine (θ_run Cert.KernelIdeal.defs _ _).mono (fun _ h c => ?_) (Cert.KernelIdeal.Hand.run_all m ρ)
    exact ⟨(h c _ (Cert.KernelIdeal.Hand.mem_uc Cert.KernelIdeal.main_v10 (by decide))).trans (Cert.KernelIdeal.Bridge.kernel_is_G m c),
      (h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_is_G m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
